-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x512 : Shape := ⟨2, ![100000, 512]⟩
abbrev S4 : Shape := ⟨1, ![4]⟩
abbrev S512x512 : Shape := ⟨2, ![512, 512]⟩
abbrev S512 : Shape := ⟨1, ![512]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S100000x3 .f32) (main_arg1 : FVec F S100000x512 .f32) (main_arg2 : IVec S4 32) (main_arg3 : FVec F S512x512 .f32) (main_arg4 : FVec F S512 .f32) (main_arg5 : FVec F S512 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_v13 main_v16
-- ==== Kernel.lean ====
abbrev S100000x3 : Shape := ⟨2, ![100000, 3]⟩
abbrev S100000x512 : Shape := ⟨2, ![100000, 512]⟩
abbrev S4 : Shape := ⟨1, ![4]⟩
abbrev S512x512 : Shape := ⟨2, ![512, 512]⟩
abbrev S512 : Shape := ⟨1, ![512]⟩
abbrev S8x512 : Shape := ⟨2, ![8, 512]⟩
abbrev S4000x512 : Shape := ⟨2, ![4000, 512]⟩
abbrev S1x512 : Shape := ⟨2, ![1, 512]⟩
abbrev S5000x512 : Shape := ⟨2, ![5000, 512]⟩

abbrev nBuf : Space → Nat
  | .hbm => 11
  | .vmem => 13
  | .smem => 0
  | _ => 0

abbrev bufTy : (tb : Table) → Fin (tcTables nBuf tb) → BufTy
  | .hbm, ⟨0, _⟩ => ⟨S100000x3, .f32⟩
  | .hbm, ⟨1, _⟩ => ⟨S100000x512, .f32⟩
  | .hbm, ⟨2, _⟩ => ⟨S4, .i32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S100000x512, .bf16⟩
  | .hbm, ⟨7, _⟩ => ⟨S8x512, .f32⟩
  | .hbm, ⟨8, _⟩ => ⟨S1x512, .f32⟩
  | .hbm, ⟨9, _⟩ => ⟨S1x512, .f32⟩
  | .hbm, ⟨10, _⟩ => ⟨S100000x512, .f32⟩
  | .local _ .vmem, ⟨0, _⟩ => ⟨S4000x512, .f32⟩
  | .local _ .vmem, ⟨1, _⟩ => ⟨S4000x512, .f32⟩
  | .local _ .vmem, ⟨2, _⟩ => ⟨S512x512, .f32⟩
  | .local _ .vmem, ⟨3, _⟩ => ⟨S4000x512, .bf16⟩
  | .local _ .vmem, ⟨4, _⟩ => ⟨S4000x512, .bf16⟩
  | .local _ .vmem, ⟨5, _⟩ => ⟨S8x512, .f32⟩
  | .local _ .vmem, ⟨6, _⟩ => ⟨S5000x512, .bf16⟩
  | .local _ .vmem, ⟨7, _⟩ => ⟨S5000x512, .bf16⟩
  | .local _ .vmem, ⟨8, _⟩ => ⟨S8x512, .f32⟩
  | .local _ .vmem, ⟨9, _⟩ => ⟨S1x512, .f32⟩
  | .local _ .vmem, ⟨10, _⟩ => ⟨S1x512, .f32⟩
  | .local _ .vmem, ⟨11, _⟩ => ⟨S5000x512, .f32⟩
  | .local _ .vmem, ⟨12, _⟩ => ⟨S5000x512, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32_9 : BitVec 32 := 0#32
  let v24 : BitVec 1 := Scalar.cmpi .eq arg0 c0_i32_9
  let v25 : BitVec 32 := Scalar.extui v24
  let c0_i32_10 : BitVec 32 := 0#32
  let v26 : BitVec 1 := Scalar.cmpi .ne v25 c0_i32_10
  v26

def k0_cond2 (i : grid0.Coords) : BitVec 1 :=
  let arg0 : BitVec 32 := BitVec.ofNat 32 (i 0).val
  let c0_i32_11 : BitVec 32 := 0#32
  let v27 : BitVec 1 := Scalar.cmpi .ne arg0 c0_i32_11
  let v28 : BitVec 32 := Scalar.extui v27
  let c0_i32_12 : BitVec 32 := 0#32
  let v29 : BitVec 1 := Scalar.cmpi .ne v28 c0_i32_12
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S4000x512_S4000x512_0_0 : ∀ a, (![0, 0] : Fin 2 → Nat) a + S4000x512.size a ≤ S4000x512.size a
  h_S4000x512 : 0 < S4000x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S4000x512_S4000x512_0_0 : (Rect.unit (s := S4000x512) ![0, 0] S4000x512.size inb_S4000x512_S4000x512_0_0).PackedRows (EltTy.packing .bf16)
  reduces_S4000x512_S512 : S4000x512.Reduces [0] S512
  iota_S8x512_d0_w32 : S8x512.Iotas .tc 32 [0]
  shapeCasts_S512_S1x512 : S512.ShapeCasts S1x512
  shapeCasts_S1x512_S1x512 : S1x512.ShapeCasts S1x512
  broadcasts_S1x512_S8x512 : S1x512.Broadcasts S8x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o0_0_S1x512 : S8x512.Slices ![0, 0] S1x512
  slices_S8x512_o1_0_S1x512 : S8x512.Slices ![1, 0] S1x512
  inb_S1x512_S1x512_0_0 : ∀ a, (![0, 0] : Fin 2 → Nat) a + S1x512.size a ≤ S1x512.size a
  h_S1x512 : 0 < S1x512.numel
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  broadcasts_S1x512_S5000x512 : S1x512.Broadcasts S5000x512
  dot_S4000x512_S512x512_S4000x512_1_1_0_0_n_n_wf : DotDims.WF S4000x512 S512x512 S4000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x512.size a ≤ S100000x512.size a
  hwx0_2 : ∀ i : grid0.Coords, EltTy.bits .bf16 = 32 ∨ (Rect.block (s := S100000x512) S4000x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x512.size a
  hwx0_3 : ∀ i : grid0.Coords, EltTy.bits .f32 = 32 ∨ (Rect.block (s := S8x512) S8x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S100000x512.size a
  hwx1_0 : ∀ i : grid1.Coords, EltTy.bits .bf16 = 32 ∨ (Rect.block (s := S100000x512) S5000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x512.size a ≤ S8x512.size a
  hwx1_1 : ∀ i : grid1.Coords, EltTy.bits .f32 = 32 ∨ (Rect.block (s := S8x512) S8x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x512.size a ≤ S100000x512.size a
  hwx1_4 : ∀ i : grid1.Coords, EltTy.bits .f32 = 32 ∨ (Rect.block (s := S100000x512) S5000x512.size (cc1_transform_4 i) (hinb1_4 i)).WholeWords (EltTy.packing .f32)

variable [Facts₀]

def dot_S4000x512_S512x512_S4000x512_1_1_0_0_n_n : DotDims S4000x512 S512x512 S4000x512 where
  lhsContracting := [1]
  rhsContracting := [1]
  lhsNonContracting := [0]
  rhsNonContracting := [0]
  lhsBatch := []
  rhsBatch := []
  wf := dot_S4000x512_S512x512_S4000x512_1_1_0_0_n_n_wf

abbrev win0_0 : Pipeline.Window sig grid0 :=
  Pipeline.Window.ofSpec (Memref.whole main_arg1) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4000x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

abbrev win1_0 : Pipeline.Window sig grid1 :=
  Pipeline.Window.ofSpec (Memref.whole main_v0_0) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S5000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x3 : Shape := ⟨2, ![100000, 3]⟩
abbrev S100000x512 : Shape := ⟨2, ![100000, 512]⟩
abbrev S4 : Shape := ⟨1, ![4]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 55
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x512, .f32⟩
  | .hbm, ⟨2, _⟩ => ⟨S4, .i32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S100000x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .i32⟩
  | .hbm, ⟨14, _⟩ => ⟨S_, .f32⟩
  | .hbm, ⟨15, _⟩ => ⟨S512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S100000x512, .f32⟩
  | .hbm, ⟨21, _⟩ => ⟨S100000x512, .f32⟩
  | .hbm, ⟨22, _⟩ => ⟨S100000x512, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S1x512, .f32⟩
  | .hbm, ⟨37, _⟩ => ⟨S100000x512, .f32⟩
  | .hbm, ⟨38, _⟩ => ⟨S100000x512, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S512, .f32⟩
  | .hbm, ⟨43, _⟩ => ⟨S1x512, .f32⟩
  | .hbm, ⟨44, _⟩ => ⟨S100000x512, .f32⟩
  | .hbm, ⟨45, _⟩ => ⟨S100000x512, .f32⟩
  | .hbm, ⟨46, _⟩ => ⟨S1x512, .f32⟩
  | .hbm, ⟨47, _⟩ => ⟨S100000x512, .f32⟩
  | .hbm, ⟨48, _⟩ => ⟨S100000x512, .f32⟩
  | .hbm, ⟨49, _⟩ => ⟨S1x512, .f32⟩
  | .hbm, ⟨50, _⟩ => ⟨S100000x512, .f32⟩
  | .hbm, ⟨51, _⟩ => ⟨S100000x512, .f32⟩
  | .hbm, ⟨52, _⟩ => ⟨S_, .f32⟩
  | .hbm, ⟨53, _⟩ => ⟨S100000x512, .f32⟩
  | .hbm, ⟨54, _⟩ => ⟨S100000x512, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_call1_cst : Ref sig .tc := ⟨.hbm, 52, rfl⟩
abbrev main_call1_v0 : Ref sig .tc := ⟨.hbm, 53, rfl⟩
abbrev main_v21 : Ref sig .tc := ⟨.hbm, 54, rfl⟩

abbrev nD : Nat := 1
abbrev τ : Topo := Topo.v7x

variable {F : FTy → Type} [FloatOps F]

class Facts₀ : Prop where
  transposes_S512x512_S512x512_1_0 : S512x512.Transposes [1, 0] S512x512
  reducesTo_S100000x512_S512_d0 : S100000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  dot_S100000x512_S512x512_S100000x512_1_0_0_1_n_n_wf : DotDims.WF S100000x512 S512x512 S100000x512 [1] [0] [0] [1] [] []

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf

class Facts : Prop extends Facts₀ where

variable [Facts]
-- ==== Proof.K.Reg0.lean ====
/-
  The first launch: 25 row tiles of 4000 rows. At tile t the body forms the tile's product h_t = x_t · Wᵀ, stores it
  (narrowed) as block t of the staged product, and adds the tile's column sums of h_t and of h_t² into rows 0 and 1 of
  an 8 × 512 statistics block that stays in its staging buffer from the first tile to the last: the first tile stores
  its contribution, every later tile adds its own to what the tile before left.
-/
import proofs.«140233_g37288906064498_cont_8to1_b_846_8_alg».proof.Proof.Gen.Kernel.Launch
import proofs.«140233_g37288906064498_cont_8to1_b_846_8_alg».proof.Proof.Gen.Kernel.Skeleton
import proofs.«140233_g37288906064498_cont_8to1_b_846_8_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.MmStats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the launch finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 4000 rows of x that tile `t` reads, and the weight matrix (the same whole matrix at every tile). -/
abbrev xTile (c : Dev nD) (t : Fin cfg0.N) : Vec F S4000x512 .f32 := blk V c 0 t
abbrev wMat (c : Dev nD) (t : Fin cfg0.N) : Vec F S512x512 .f32 := blk V c 1 t

/-- The statistics block after tile `n`: the first tile's contribution, then each later tile's added to what the
    tile before left. -/
def statsAt (c : Dev nD) : (n : ℕ) → n < cfg0.N → Vec F S8x512 .f32
  | 0, hn => k0_pay3 (xTile V c ⟨0, hn⟩) (wMat V c ⟨0, hn⟩)
  | n + 1, hn => k0_pay4 (xTile V c ⟨n + 1, hn⟩) (wMat V c ⟨n + 1, hn⟩) (statsAt c n (Nat.lt_of_succ_lt hn))

/-- What each window's staging buffer holds after the body at tile `t`: the inputs their blocks, the product window
    the tile's narrowed product, the statistics window the running sums. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => k0_pay2 (xTile V c t) (wMat V c t)
    | ⟨3, _⟩ => statsAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk V c 0 t := by dsimp only [dat0]
theorem after0_1 (c : Dev nD) (t : Fin cfg0.N) : (dat0 V c).after 1 t = blk V c 1 t := by dsimp only [dat0]
theorem after0_2 (c : Dev nD) (t : Fin cfg0.N) : (dat0 V c).after 2 t = k0_pay2 (xTile V c t) (wMat V c t) := by dsimp only [dat0]
theorem after0_3 (c : Dev nD) (t : Fin cfg0.N) : (dat0 V c).after 3 t = statsAt V c t.val t.isLt := by dsimp only [dat0]

/-! ## The schedule of the two conditionals and of the statistics window -/

/-- The first conditional is taken at tile 0 only, -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- the second at every later tile. -/
theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two is taken at every grid coordinate: the statistics window is stored into at every tile. -/
theorem stats_live : ∀ i : grid0.Coords, cfg0.idle 3 i = false := by decide +kernel

/-! ## The recursion of the running statistics, read at a tile -/

theorem statsAt_first (c : Dev nD) (t : Fin cfg0.N) (h0 : t.val = 0) :
    statsAt V c t.val t.isLt = k0_pay3 (xTile V c t) (wMat V c t) := by
  obtain ⟨n, hn⟩ := t
  cases n with
  | zero => rfl
  | succ n => exact absurd h0 (Nat.succ_ne_zero n)

theorem statsAt_later (c : Dev nD) (t : Fin cfg0.N) (h0 : t.val ≠ 0) :
    statsAt V c t.val t.isLt
      = k0_pay4 (xTile V c t) (wMat V c t) (statsAt V c (t.val - 1) (Nat.lt_of_le_of_lt (Nat.sub_le _ _) t.isLt)) := by
  obtain ⟨n, hn⟩ := t
  cases n with
  | zero => exact absurd rfl h0
  | succ n => rfl

/-! ## What the body finds in each staging buffer -/

/-- The x window's buffer holds tile `t`'s rows, -/
theorem before0_0 (c : Dev nD) (t : Fin cfg0.N) (d) : (dat0 V c).before 0 t d = blk V c 0 t := by
  rw [(dat0 V c).before_in_eq_fetched 0 rfl (fun _ => rfl) (fun _ _ _ => rfl)
    (fun s => by rw [after0_0]; unfold Dat.blockOf blk; rw [A_eq0]) t d]
  unfold Dat.fetched Dat.blockOf blk; rw [A_eq0]; rfl

/-- the weight window's the whole matrix, fetched at the first tile and left in place since. -/
theorem before0_1 (c : Dev nD) (t : Fin cfg0.N) (d) : (dat0 V c).before 1 t d = blk V c 1 t := by
  rw [(dat0 V c).before_in_eq_fetched 1 rfl (fun _ => rfl) (fun _ _ _ => rfl)
    (fun s => by rw [after0_1]; unfold Dat.blockOf blk; rw [A_eq0]) t d]
  unfold Dat.fetched Dat.blockOf blk; rw [A_eq0]; rfl

/-- After the first tile the statistics window's buffer holds what the tile before left: it is written back only
    after the last tile, it is stored into at every tile, and its block is the whole 8 × 512 array. -/
theorem before0_3 (c : Dev nD) (t : Fin cfg0.N) (h0 : t.val ≠ 0) (d) :
    (dat0 V c).before 3 t d = statsAt V c (t.val - 1) (Nat.lt_of_le_of_lt (Nat.sub_le _ _) t.isLt) := by
  have hN : t.val < 25 := lt_of_lt_of_eq t.isLt (show cfg0.N = 25 from N_0)
  -- the tile before is not the last, so it did not write the block back
  have hkeep : (cfg0.win 3).flush ⟨t.val - 1, Nat.lt_of_le_of_lt (Nat.sub_le _ _) t.isLt⟩ = false := by
    apply Bool.eq_false_iff.mpr
    intro hfl
    have h24 : (t.val - 1) % 25 = 24 := (flush0_3 _).mp hfl
    omega
  rw [Dat.before_out_kept _ 3 rfl t h0 hkeep stats_live (fun _ _ => rfl), after0_3]

/-! ## The body on any whole staging memrefs, in its two cases -/

theorem zeros2 : (![0, 0] : Fin 2 → Nat) = fun _ => 0 := funext fun a => by fin_cases a <;> rfl

/-- One store through the whole-shape rectangle leaves its payload, whatever the buffer held. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (p : S.Idx → Elt F e) :
    v.read (Elt F) (v.writes (Elt F) f [⟨Rect.unit off S.size inb, p⟩]) = p := by
  rw [View.read_writes_eq_canon v f _ (fun y => ⟨_, List.mem_singleton_self _, View.mem_set_unit_zero h inb y⟩),
    View.canon_unit_zero h inb]

/-- A load through the whole-shape rectangle of a whole memref held at `X` reads `X`. -/
theorem load_whole {sp : Space} {S : Shape} {e : EltTy} (m : Memref sig .tc sp S e) (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h inb]

/-- At the first tile: the product window is stored the narrowed product, the statistics window the tile's own
    contribution, whatever either buffer held. -/
theorem run_first (c : Dev nD) (i : grid0.Coords)
    (m1 : Memref sig .tc .vmem S4000x512 .f32) (h1 : m1.IsWhole) (m2 : Memref sig .tc .vmem S512x512 .f32) (h2 : m2.IsWhole)
    (m3 : Memref sig .tc .vmem S4000x512 .bf16) (h3 : m3.IsWhole) (m4 : Memref sig .tc .vmem S8x512 .f32) (h4 : m4.IsWhole)
    (hc1 : k0_cond1 i = 1#1) (hc2 : ¬ k0_cond2 i = 1#1)
    (x : Vec F S4000x512 .f32) (w : Vec F S512x512 .f32) (E : Set ℕ) (K : PUnit → sProp 𝕄) :
    iprop(owns (c : Thread nD τ) m1 fullShare x ∗ owns (c : Thread nD τ) m2 fullShare w
        ∗ (∃ X, owns (c : Thread nD τ) m3 fullShare X) ∗ (∃ X, owns (c : Thread nD τ) m4 fullShare X)
        ∗ (iprop(owns (c : Thread nD τ) m1 fullShare x ∗ owns (c : Thread nD τ) m2 fullShare w
            ∗ owns (c : Thread nD τ) m3 fullShare (k0_pay2 x w) ∗ owns (c : Thread nD τ) m4 fullShare (k0_pay3 x w)) -∗ K ⟨⟩))
      ⊢ wp frame (wpE (defs₀ (F := F)) Variants.none c none) E (cc0__mm_stats_body i m1 h1 m2 h2 m3 h3 m4 h4) K := by
  simp only [cc0__mm_stats_body_eq_skeleton]; unfold cc0__mm_stats_body_skel
  unfold owns
  iintro ⟨⟨%f1, %hf1, H1⟩, ⟨%f2, %hf2, H2⟩, ⟨%X3, %f3, %hf3, H3⟩, ⟨%X4, %f4, %hf4, H4⟩, Hk⟩
  obtain rfl := h1.eq_unread hf1; obtain rfl := h2.eq_unread hf2
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole (S := S4000x512) m3.view f3 zeros2, load_whole (S := S4000x512) m1 h1 zeros2, load_whole (S := S512x512) m2 h2 zeros2]
  · iexists _; isplitr
    swap; · iexact H4
    ipureintro
    rw [read_store_whole (S := S8x512) m4.view f4 zeros2, load_whole (S := S4000x512) m1 h1 zeros2, load_whole (S := S512x512) m2 h2 zeros2]

/-- At a later tile: the product window likewise; the statistics window, found at `s`, is left at `s` with the
    tile's contribution added. -/
theorem run_later (c : Dev nD) (i : grid0.Coords)
    (m1 : Memref sig .tc .vmem S4000x512 .f32) (h1 : m1.IsWhole) (m2 : Memref sig .tc .vmem S512x512 .f32) (h2 : m2.IsWhole)
    (m3 : Memref sig .tc .vmem S4000x512 .bf16) (h3 : m3.IsWhole) (m4 : Memref sig .tc .vmem S8x512 .f32) (h4 : m4.IsWhole)
    (hc1 : ¬ k0_cond1 i = 1#1) (hc2 : k0_cond2 i = 1#1)
    (x : Vec F S4000x512 .f32) (w : Vec F S512x512 .f32) (s : Vec F S8x512 .f32) (E : Set ℕ) (K : PUnit → sProp 𝕄) :
    iprop(owns (c : Thread nD τ) m1 fullShare x ∗ owns (c : Thread nD τ) m2 fullShare w
        ∗ (∃ X, owns (c : Thread nD τ) m3 fullShare X) ∗ owns (c : Thread nD τ) m4 fullShare s
        ∗ (iprop(owns (c : Thread nD τ) m1 fullShare x ∗ owns (c : Thread nD τ) m2 fullShare w
            ∗ owns (c : Thread nD τ) m3 fullShare (k0_pay2 x w) ∗ owns (c : Thread nD τ) m4 fullShare (k0_pay4 x w s)) -∗ K ⟨⟩))
      ⊢ wp frame (wpE (defs₀ (F := F)) Variants.none c none) E (cc0__mm_stats_body i m1 h1 m2 h2 m3 h3 m4 h4) K := by
  simp only [cc0__mm_stats_body_eq_skeleton]; unfold cc0__mm_stats_body_skel
  unfold owns
  iintro ⟨⟨%f1, %hf1, H1⟩, ⟨%f2, %hf2, H2⟩, ⟨%X3, %f3, %hf3, H3⟩, ⟨%f4, %hf4, H4⟩, Hk⟩
  obtain rfl := h1.eq_unread hf1; obtain rfl := h2.eq_unread hf2; obtain rfl := h4.eq_unread hf4
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole (S := S4000x512) m3.view f3 zeros2, load_whole (S := S4000x512) m1 h1 zeros2, load_whole (S := S512x512) m2 h2 zeros2]
  · iexists _; isplitr
    swap; · iexact H4
    ipureintro
    rw [read_store_whole (S := S8x512) m4.view _ zeros2, load_whole (S := S4000x512) m1 h1 zeros2, load_whole (S := S512x512) m2 h2 zeros2,
      load_whole (S := S8x512) m4 h4 zeros2]

/-! ## The body at a tile of the grid -/

/-- What the body is handed at tile `t`: the invariant, nothing owed, and each window's current buffer at what it
    then holds, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (dat0 V c).leavesExact 3 t)

theorem sound_body0 (c : Dev nD) (t : Fin cfg0.N) :
    pre0 V c t ⊢ wp frame (wpE (defs₀ (F := F)) Variants.none c none) Set.univ (bodyAt0 t) (fun _ => post0 V c t) := by
  unfold pre0 post0 bodyAt0 Dat.leavesExact
  rw [stats_live]
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [statsAt_first V c t h0]
    iintro ⟨HΦ, Ho, ⟨%d0, H0⟩, ⟨%d1, H1⟩, ⟨%d2, H2⟩, ⟨%d3, H3⟩⟩
    iapply (run_first c (grid0.coords t) _ _ _ _ _ _ _ _ ((cond1_iff t).mpr h0) (fun h => (cond2_iff t).mp h h0)
      (blk V c 0 t) (blk V c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [statsAt_later V c t h0]
    simp only [before0_3 V c t h0]
    iintro ⟨HΦ, Ho, ⟨%d0, H0⟩, ⟨%d1, H1⟩, ⟨%d2, H2⟩, ⟨%d3, H3⟩⟩
    iapply (run_later c (grid0.coords t) _ _ _ _ _ _ _ _ (fun h => h0 ((cond1_iff t).mp h)) ((cond2_iff t).mpr h0)
      (blk V c 0 t) (blk V c 1 t) _ Set.univ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body, at every tile, takes the staging buffers from what the pipeline hands it to what `dat0` says. -/
theorem body_obligation0 (c : Dev nD) : BodyObligation (dat0 (F := F) V c) (defs₀ (F := F)) Variants.none () Set.univ := fun t => by
  rw [bigSep_W0, bigSep_W0]
  exact sound_body0 V c t

end Cert.Kernel.MmStats

end
-- ==== Proof.K.Reg1.lean ====
/-
  The second launch: 20 row tiles of 5000 rows. Every tile reads the whole statistics block and the two affine rows,
  forms from them one scale and one shift per column, and stores max(h · scale + shift, 0) for its rows of the staged
  product h.
-/
import proofs.«140233_g37288906064498_cont_8to1_b_846_8_alg».proof.Proof.Gen.Kernel.Launch
import proofs.«140233_g37288906064498_cont_8to1_b_846_8_alg».proof.Proof.Gen.Kernel.Skeleton
import proofs.«140233_g37288906064498_cont_8to1_b_846_8_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the launch finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What each window's staging buffer holds after the body at tile `t`: the four inputs their blocks, the output the
    normalised, shifted and clamped rows. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => k1_pay1 (blk V c 1 t) (blk V c 2 t) (blk V c 3 t) (blk V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk V c 0 t := by dsimp only [dat1]
theorem after1_1 (c : Dev nD) (t : Fin cfg1.N) : (dat1 V c).after 1 t = blk V c 1 t := by dsimp only [dat1]
theorem after1_2 (c : Dev nD) (t : Fin cfg1.N) : (dat1 V c).after 2 t = blk V c 2 t := by dsimp only [dat1]
theorem after1_3 (c : Dev nD) (t : Fin cfg1.N) : (dat1 V c).after 3 t = blk V c 3 t := by dsimp only [dat1]
theorem after1_4 (c : Dev nD) (t : Fin cfg1.N) :
    (dat1 V c).after 4 t = k1_pay1 (blk V c 1 t) (blk V c 2 t) (blk V c 3 t) (blk V c 0 t) := by dsimp only [dat1]

/-! ### What the body finds in the four input buffers

None of the four input windows is cut or idle, and the body leaves each one's block where it found it. So each staging
buffer holds its window's block at every tile: the product's window is fetched anew at each tile, and the other three,
whose block index never moves, are fetched at the first tile and still hold that same block at the nineteen after it. -/

/-- The product's staging buffer holds the tile's 5000 rows of the staged product. -/
theorem found1_0 (c : Dev nD) (t : Fin cfg1.N) (d) : (dat1 V c).before 0 t d = blk V c 0 t := by
  have hkeep : ∀ s, (cfg1.win 0).cut (cfg1.grid.coords s) ((dat1 V c).after 0 s) = (dat1 V c).blockOf 0 s := by
    intro s; rw [after1_0]; unfold Dat.blockOf blk; rw [A_eq1]
  rw [(dat1 V c).before_in_eq_fetched 0 rfl (fun _ => rfl) (fun _ _ _ => rfl) hkeep t d]
  unfold Dat.fetched Dat.blockOf blk; rw [A_eq1]; rfl

/-- The statistics' staging buffer holds the whole statistics block. -/
theorem found1_1 (c : Dev nD) (t : Fin cfg1.N) (d) : (dat1 V c).before 1 t d = blk V c 1 t := by
  have hkeep : ∀ s, (cfg1.win 1).cut (cfg1.grid.coords s) ((dat1 V c).after 1 s) = (dat1 V c).blockOf 1 s := by
    intro s; rw [after1_1]; unfold Dat.blockOf blk; rw [A_eq1]
  rw [(dat1 V c).before_in_eq_fetched 1 rfl (fun _ => rfl) (fun _ _ _ => rfl) hkeep t d]
  unfold Dat.fetched Dat.blockOf blk; rw [A_eq1]; rfl

/-- The scale row's staging buffer holds the row. -/
theorem found1_2 (c : Dev nD) (t : Fin cfg1.N) (d) : (dat1 V c).before 2 t d = blk V c 2 t := by
  have hkeep : ∀ s, (cfg1.win 2).cut (cfg1.grid.coords s) ((dat1 V c).after 2 s) = (dat1 V c).blockOf 2 s := by
    intro s; rw [after1_2]; unfold Dat.blockOf blk; rw [A_eq1]
  rw [(dat1 V c).before_in_eq_fetched 2 rfl (fun _ => rfl) (fun _ _ _ => rfl) hkeep t d]
  unfold Dat.fetched Dat.blockOf blk; rw [A_eq1]; rfl

/-- The shift row's staging buffer holds the row. -/
theorem found1_3 (c : Dev nD) (t : Fin cfg1.N) (d) : (dat1 V c).before 3 t d = blk V c 3 t := by
  have hkeep : ∀ s, (cfg1.win 3).cut (cfg1.grid.coords s) ((dat1 V c).after 3 s) = (dat1 V c).blockOf 3 s := by
    intro s; rw [after1_3]; unfold Dat.blockOf blk; rw [A_eq1]
  rw [(dat1 V c).before_in_eq_fetched 3 rfl (fun _ => rfl) (fun _ _ _ => rfl) hkeep t d]
  unfold Dat.fetched Dat.blockOf blk; rw [A_eq1]; rfl

/-! ### Loads and the store through a whole buffer

Every access of the body goes through the rectangle at offsets `[0, 0]` of its buffer's own sizes: all of the buffer. -/

theorem zeros2 : (![0, 0] : Fin 2 → Nat) = fun _ => 0 := funext fun a => by fin_cases a <;> rfl

/-- The one store's rectangle holds every index of the output block. -/
theorem store_covers (w : Vec F S5000x512 .f32) (y : S5000x512.Idx) :
    ∃ p ∈ ([⟨Rect.unit (s := S5000x512) ![0, 0] S5000x512.size inb_S5000x512_S5000x512_0_0, w⟩] : List (View.Piece (Elt F) S5000x512 .f32)),
      y ∈ p.1.set :=
  ⟨⟨Rect.unit (s := S5000x512) ![0, 0] S5000x512.size inb_S5000x512_S5000x512_0_0, w⟩, List.mem_singleton_self _,
    View.mem_set_unit_zero (S := S5000x512) zeros2 inb_S5000x512_S5000x512_0_0 y⟩

/-- So after it the buffer reads the stored value, whatever it held. -/
theorem whole_store_reads {v : View sig .tc .vmem S5000x512 .f32} (f : v.ty.Contents (Elt F)) (w : Vec F S5000x512 .f32) :
    v.read (Elt F) (v.writes (Elt F) f [⟨Rect.unit (s := S5000x512) ![0, 0] S5000x512.size inb_S5000x512_S5000x512_0_0, w⟩]) = w := by
  rw [View.read_writes_eq_canon _ _ _ (store_covers w), View.canon_unit_zero (S := S5000x512) zeros2]

/-! ### One tile of the body

The body names no tile coordinate and no buffer but its five arguments: it loads each of them whole and stores one value,
whole, into the fifth. -/

/-- On any five whole staging memrefs, the four inputs read `h`, `s`, `g`, `b` and the fifth anything: the body ends with
    the inputs as they were and the fifth reading `k1_pay1 s g b h`. -/
theorem norm_tile (c : Dev nD) (E : Set ℕ) (i : grid1.Coords)
    (mh : Memref sig .tc .vmem S5000x512 .bf16) (wh : mh.IsWhole) (ms : Memref sig .tc .vmem S8x512 .f32) (ws : ms.IsWhole)
    (mg : Memref sig .tc .vmem S1x512 .f32) (wg : mg.IsWhole) (mb : Memref sig .tc .vmem S1x512 .f32) (wb : mb.IsWhole)
    (mo : Memref sig .tc .vmem S5000x512 .f32) (wo : mo.IsWhole)
    (h : Vec F S5000x512 .bf16) (s : Vec F S8x512 .f32) (g b : Vec F S1x512 .f32) (K : PUnit → sProp 𝕄) :
    iprop(owns (c : Thread nD τ) mh fullShare h ∗ owns (c : Thread nD τ) ms fullShare s ∗ owns (c : Thread nD τ) mg fullShare g
        ∗ owns (c : Thread nD τ) mb fullShare b ∗ (∃ d, owns (c : Thread nD τ) mo fullShare d)
        ∗ (iprop(owns (c : Thread nD τ) mh fullShare h ∗ owns (c : Thread nD τ) ms fullShare s ∗ owns (c : Thread nD τ) mg fullShare g
            ∗ owns (c : Thread nD τ) mb fullShare b ∗ owns (c : Thread nD τ) mo fullShare (k1_pay1 s g b h)) -∗ K ⟨⟩))
      ⊢ wp frame (wpE (defs₀ (F := F)) Variants.none c none) E (cc1__norm_body i mh wh ms ws mg wg mb wb mo wo) K := by
  simp only [cc1__norm_body_eq_skeleton]; unfold cc1__norm_body_skel
  unfold owns
  iintro ⟨⟨%fh, %eh, Hh⟩, ⟨%fs, %es, Hs⟩, ⟨%fg, %eg, Hg⟩, ⟨%fb, %eb, Hb⟩, ⟨%d, %fo, -, Ho⟩, Hk⟩
  subst eh es eg eb
  sl_exec
  sl_step
  iapply Hk
  isplitl [Hh]
  · iexists fh; isplitr; · ipureintro; rfl
    iexact Hh
  isplitl [Hs]
  · iexists fs; isplitr; · ipureintro; rfl
    iexact Hs
  isplitl [Hg]
  · iexists fg; isplitr; · ipureintro; rfl
    iexact Hg
  isplitl [Hb]
  · iexists fb; isplitr; · ipureintro; rfl
    iexact Hb
  iexists _; isplitr
  swap; · iexact Ho
  ipureintro
  -- the store leaves its value, and each load read all of its buffer
  rw [whole_store_reads]
  simp only [View.readAt_eq_ld, View.ld_unit_zero (S := S8x512) zeros2, View.ld_unit_zero (S := S1x512) zeros2,
    View.ld_unit_zero (S := S5000x512) zeros2]

/-! ### The obligation at a tile -/

/-- What the pipeline hands the body at tile `t`: the launch's invariant, what the core owes, and each window's current
    staging buffer at what it then holds. -/
def tilePre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back: the same invariant and debt, and each of those buffers at what `dat1` says it leaves. -/
def tilePost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At every tile the body takes the one to the other: the four input buffers hold their blocks (`found1_0` … `found1_3`),
    `norm_tile` runs on them, and the invariant and the debt, which the body never touches, are the same at both ends. -/
theorem sound_body1 (c : Dev nD) (t : Fin cfg1.N) :
    tilePre V c t ⊢ wp frame (wpE (defs₀ (F := F)) Variants.none c none) Set.univ (bodyAt1 t) (fun _ => tilePost V c t) := by
  unfold tilePre tilePost bodyAt1
  simp only [found1_0, found1_1, found1_2, found1_3]
  rw [after1_0, after1_1, after1_2, after1_3, after1_4,
    show (dat1 V c).Φ t.succ = (dat1 V c).Φ t.castSucc from rfl,
    show (dat1 V c).owesAt () t.succ = (dat1 V c).owesAt () t.castSucc from rfl]
  iintro ⟨HΦ, Howe, ⟨%d0, H0⟩, ⟨%d1, H1⟩, ⟨%d2, H2⟩, ⟨%d3, H3⟩, ⟨%d4, H4⟩⟩
  iapply (norm_tile c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Howe]; · iexact Howe
  isplitl [H0]; · iexact H0
  isplitl [H1]; · iexact H1
  isplitl [H2]; · iexact H2
  isplitl [H3]; · iexact H3
  iexact H4

/-- The body, at every tile, takes the staging buffers from what the pipeline hands it to what `dat1` says. -/
theorem body_obligation1 (c : Dev nD) : BodyObligation (dat1 (F := F) V c) (defs₀ (F := F)) Variants.none () Set.univ :=
  fun t => by
    rw [bigSep_W1, bigSep_W1]
    exact sound_body1 V c t

end Cert.Kernel.Norm

end
-- ==== Proof.K.Run.lean ====
/-
  The whole program on one core: the first launch, the two reshapes of the affine rows, the second launch. The
  buffers' contents are followed from the launch to the return: the first launch changes only the staged product and
  the statistics, the reshapes write the two row buffers, the second launch changes only the result.
-/
import proofs.«140233_g37288906064498_cont_8to1_b_846_8_alg».proof.Proof.K.Reg0
import proofs.«140233_g37288906064498_cont_8to1_b_846_8_alg».proof.Proof.K.Reg1
import proofs.«140233_g37288906064498_cont_8to1_b_846_8_alg».proof.Proof.Gen.Kernel.Regions
import Idealize.ShloMosaic.Lib.Pipeline.RegionsLoop
import Idealize.ShloMosaic.Lib.Pipeline.FrameSuffix
import Idealize.ShloMosaic.Lib.Pipeline.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers at the launch. -/
abbrev B0 : Dev nD → Valuation τ sig (Elt F) := fun c b => m ((c : Dev nD), b)
abbrev V0 : (c : Dev nD) → (b : Ref sig .tc) → Buf (Elt F) ((c : Thread nD τ).loc b) := fun c b => B0 m c b
/-- After the first launch: its arrays at what its write-backs leave, every other buffer as before. -/
def B1 (c : Dev nD) : Valuation τ sig (Elt F) :=
  Pipeline.withArrays spec0 c (B0 m c) fun w => (MmStats.dat0 (V0 m) c).arrAt w cfg0.N
/-- After the two reshapes. -/
abbrev B2 : Dev nD → Valuation τ sig (Elt F) := fun c => StableHlo.after hostOps1 (B1 m c)
abbrev V2 : (c : Dev nD) → (b : Ref sig .tc) → Buf (Elt F) ((c : Thread nD τ).loc b) := fun c b => B2 m c b
/-- After the second launch. -/
def B3 (c : Dev nD) : Valuation τ sig (Elt F) :=
  Pipeline.withArrays spec1 c (B2 m c) fun w => (Norm.dat1 (V2 m) c).arrAt w cfg1.N

/-! ## What each item changes and what it leaves -/

/-- The first launch leaves each of its four arrays at what its write-backs make of it, -/
theorem B1_arr (c : Dev nD) (w : Fin cfg0.W) :
    B1 m c (Proc.devRef .tc (Pipeline.arrRef spec0 w)) = (MmStats.dat0 (V0 m) c).arrAt w cfg0.N :=
  Pipeline.withArrays_arr spec0 winFacts0.arr_inj c (B0 m c) _ w
/-- and every other buffer as it found it. -/
theorem B1_of (c : Dev nD) (r : Ref sig .tc) (h : ∀ w, Pipeline.arrRef spec0 w ≠ r) :
    B1 m c (Proc.devRef .tc r) = B0 m c (Proc.devRef .tc r) :=
  Pipeline.withArrays_of_ne spec0 c (B0 m c) _ r h
/-- The reshapes write the two row buffers only. -/
theorem B2_of (c : Dev nD) (r : Ref sig .tc) (h : r ∉ hostOps1_W) :
    B2 m c (Proc.devRef .tc r) = B1 m c (Proc.devRef .tc r) :=
  StableHlo.after_of_writes_sub hostOps1 (B1 m c) hostOps1_writes h
/-- The second launch leaves each of its five arrays at what its write-backs make of it, -/
theorem B3_arr (c : Dev nD) (w : Fin cfg1.W) :
    B3 m c (Proc.devRef .tc (Pipeline.arrRef spec1 w)) = (Norm.dat1 (V2 m) c).arrAt w cfg1.N :=
  Pipeline.withArrays_arr spec1 winFacts1.arr_inj c (B2 m c) _ w
/-- and every other buffer as it found it. -/
theorem B3_of (c : Dev nD) (r : Ref sig .tc) (h : ∀ w, Pipeline.arrRef spec1 w ≠ r) :
    B3 m c (Proc.devRef .tc r) = B2 m c (Proc.devRef .tc r) :=
  Pipeline.withArrays_of_ne spec1 c (B2 m c) _ r h

/-- A buffer that neither launch stages as an output and no reshape writes holds at the end what it held at the launch. -/
theorem B3_untouched (c : Dev nD) (r : Ref sig .tc) (h1 : ∀ w, Pipeline.arrRef spec1 w ≠ r) (hh : r ∉ hostOps1_W)
    (h0 : ∀ w, Pipeline.arrRef spec0 w ≠ r) : B3 m c (Proc.devRef .tc r) = m ((c.tc : Thread nD τ).loc r) :=
  (B3_of m c r h1).trans ((B2_of m c r hh).trans (B1_of m c r h0))
/-- An input array of the first launch that nothing else writes holds at the end what it held at the launch. -/
theorem B3_input0 (c : Dev nD) (w : Fin cfg0.W) (hin : (cfg0.win w).isOut = false)
    (h1 : ∀ w', Pipeline.arrRef spec1 w' ≠ Pipeline.arrRef spec0 w) (hh : Pipeline.arrRef spec0 w ∉ hostOps1_W) :
    B3 m c (Proc.devRef .tc (Pipeline.arrRef spec0 w)) = m ((c.tc : Thread nD τ).loc (Pipeline.arrRef spec0 w)) :=
  (B3_of m c _ h1).trans ((B2_of m c _ hh).trans ((B1_arr m c w).trans ((MmStats.dat0 (V0 m) c).arrAt_in w hin cfg0.N)))

/-- An unscoped reference of the core is among the buffers every item holds. -/
theorem mem_ucRefs_of_unscoped (b : Ref sig .tc) (hb : (Proc.devRef (τ := τ) .tc b).isScoped = false) :
    Proc.devRef .tc b ∈ Pipeline.ucRefs τ sig :=
  Finset.mem_filter.mpr ⟨StableHlo.devRef_mem_tcRefs b, fun h => Bool.false_ne_true (hb.symm.trans h)⟩

/-! ## The two launches and the reshapes as items of one run -/

/-- No core owes another anything: no level is assigned. -/
abbrev noLevels : GSem nD τ sig → Finset Unit := fun _ => ∅
abbrev level0 : GSem nD τ sig → Unit → ℕ := fun _ _ => 0

/-- Both launches' proof data: the first reads the buffers as launched, the second as the reshapes leave them. -/
def launchDats : (p : Fin 2) → (c : Dev nD) → Dat τ (Elt F) Unit ℕ (UR sig nD τ) ℕ (Pipeline.pin (pcfgs (F := F)) adm p) c
  | ⟨0, _⟩ => fun c => MmStats.dat0 (V0 m) c
  | ⟨1, _⟩ => fun c => Norm.dat1 (V2 m) c

/-- What a core carries between two items besides its buffers: the generator register at some state, nothing owed. -/
abbrev Carried (c : Dev nD) : sProp 𝕄 :=
  iprop((∃ r, prngReg c r) ∗ ∃ W, owes (c : Thread nD τ) (0 : CellTallies nD τ sig Unit) W)

/-- A core between two items: every unscoped buffer held at `B c`, beside the rest. -/
abbrev Between (B : Dev nD → Valuation τ sig (Elt F)) (c : Dev nD) : sProp 𝕄 :=
  iprop(StableHlo.held (c : Thread nD τ) (Pipeline.ucRefs τ sig) (B c) ∗ Carried c)

/-- The buffers of a core between two items, as the launch theorems spell them. -/
theorem Between_eq (B : Dev nD → Valuation τ sig (Elt F)) (c : Dev nD) :
    (Between B c : sProp 𝕄) = iprop(unscopedBufs c (fun b => B c b) ∗ Carried c) := by
  rw [Pipeline.unscopedBufs_held (Ix := Unit) (Name := ℕ) (U := UR sig nD τ) (Lvl := ℕ) c (B c)]

/-- A launch prefetches no table: the tables' part of an entry is empty. -/
theorem noTables (p : Fin 2) (c : Dev nD) :
    (BI.emp : sProp 𝕄) ⊢ Pipeline.prefHeld (pcfgs (F := F) p).pre c (fun _ => fullShare) (adm (F := F) p).1 := by
  unfold Pipeline.prefHeld
  rw [show (Finset.univ : Finset (Fin 0)) = ∅ from rfl, BI.bigSep_empty]

-- the configuration at a launch's index is this launch's only after unfolding: unification must be allowed to unfold
-- plain definitions inside a metavariable's type (here and for the second launch and the run below)
set_option backward.isDefEq.respectTransparency.types false in
/-- THE FIRST LAUNCH: entered with the buffers as launched, left with its four arrays at what its write-backs make of
    them and every other buffer untouched. Its arrays go to the pipeline, the generator register to the class
    invariant, the other buffers around the region. -/
def reg0 : Pipeline.RegionSeg (pcfgs (F := F)) adm (launchDats m) () defs₀ Variants.none noLevels level0 0 where
  win := winFacts0.to₀
  block_pos := block_pos0
  stage_whole := stage_whole0
  K := PEmpty
  osem k := k.elim
  ho := Pipeline.OwnSemFacts.none _
  hbody c := (MmStats.body_obligation0 (V0 m) c).loose
  hwaits := Pipeline.hwaits_of_owed_zero _ _ _ _ noLevels level0 0 fun _ _ => rfl
  pre := Between (B0 m)
  post := Between (B1 m)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none, Between_eq]
    have hsplit := Pipeline.arrays_of_unscopedBufs (p := 0) (pcfgs (F := F)) adm (launchDats m) winFacts0 arr_whole0 c
      ((launchDats m 0 c).share_full fun _ => rfl) (V0 m c) fun _ => rfl
    iintro ⟨⟨Hub, Hg, HO⟩, -, -⟩
    ihave H := hsplit $$ Hub
    icases H with ⟨Ha, Hrest⟩
    imodintro
    isplitl [Ha]; · iexact Ha
    isplitr; · iapply (noTables 0 c); iempintro
    isplitl [HO]
    · unfold Pipeline.Dat.owesAt Pipeline.owesWithin
      icases HO with ⟨%W, HO⟩
      iexists W; isplitr; · ipureintro; exact fun x _ => Or.inl (Set.mem_univ x)
      iexact HO
    isplitl [Hg]; · iexact Hg
    iexact Hrest
  hin c := by
    rw [show (launchDats m 0 c).Φ 0 = Pipeline.ΦA spec0 c from rfl]; unfold Pipeline.ΦA
    iintro ⟨Hg, -, Hs⟩
    isplitl [Hs]; · iexact Hs
    iexact Hg
  hout c := by
    rw [Pipeline.ownSems0_none, show (launchDats m 0 c).Φ (Fin.last _) = Pipeline.ΦA spec0 c from rfl]; unfold Pipeline.ΦA
    iintro ⟨Hs, Hg⟩
    isplitl [Hg]; · iexact Hg
    isplitr; · iempintro
    iexact Hs
  hexit c := by
    have hjoin := Pipeline.unscopedBufs_of_arrays (p := 0) (pcfgs (F := F)) adm (Ix := Unit) (Name := ℕ) (U := UR sig nD τ) (Lvl := ℕ)
      winFacts0 arr_whole0 c (launchDats m) ((launchDats m 0 c).share_full fun _ => rfl) (V0 m c) (fun b => B1 m c b)
      (fun w => (launchDats m 0 c).arrAt w cfg0.N) (fun w => (B1_arr m c w).symm)
      (fun b hb => B1_of m c b fun w e => hb (Finset.mem_image.mpr ⟨w, Finset.mem_univ _, e⟩))
    rw [Between_eq]
    iintro ⟨Ha, HO, Hg, Hrest⟩
    imodintro
    isplitl [Ha Hrest]
    · iapply hjoin; isplitl [Ha] <;> iassumption
    isplitl [Hg]; · iexact Hg
    unfold Pipeline.Dat.owesAt Pipeline.owesWithin
    icases HO with ⟨%W, -, HO⟩
    iexists W; iexact HO

/-- THE RESHAPES, over the unscoped buffers as the first launch leaves them. -/
def reshapes : Pipeline.HostSeg (Name := ℕ) (U := UR sig nD τ) (pcfgs (F := F)) defs₀ Variants.none noLevels level0 :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 m) Carried

set_option backward.isDefEq.respectTransparency.types false in
/-- THE SECOND LAUNCH: entered with the buffers as the reshapes leave them, left with its five arrays at what its
    write-backs make of them (only the result's change) and every other buffer untouched. -/
def reg1 : Pipeline.RegionSeg (pcfgs (F := F)) adm (launchDats m) () defs₀ Variants.none noLevels level0 1 where
  win := winFacts1.to₀
  block_pos := block_pos1
  stage_whole := stage_whole1
  K := PEmpty
  osem k := k.elim
  ho := Pipeline.OwnSemFacts.none _
  hbody c := (Norm.body_obligation1 (V2 m) c).loose
  hwaits := Pipeline.hwaits_of_owed_zero _ _ _ _ noLevels level0 1 fun _ _ => rfl
  pre := Between (B2 m)
  post := Between (B3 m)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none, Between_eq]
    have hsplit := Pipeline.arrays_of_unscopedBufs (p := 1) (pcfgs (F := F)) adm (launchDats m) winFacts1 arr_whole1 c
      ((launchDats m 1 c).share_full fun _ => rfl) (V2 m c) fun _ => rfl
    iintro ⟨⟨Hub, Hg, HO⟩, -, -⟩
    ihave H := hsplit $$ Hub
    icases H with ⟨Ha, Hrest⟩
    imodintro
    isplitl [Ha]; · iexact Ha
    isplitr; · iapply (noTables 1 c); iempintro
    isplitl [HO]
    · unfold Pipeline.Dat.owesAt Pipeline.owesWithin
      icases HO with ⟨%W, HO⟩
      iexists W; isplitr; · ipureintro; exact fun x _ => Or.inl (Set.mem_univ x)
      iexact HO
    isplitl [Hg]; · iexact Hg
    iexact Hrest
  hin c := by
    rw [show (launchDats m 1 c).Φ 0 = Pipeline.ΦA spec1 c from rfl]; unfold Pipeline.ΦA
    iintro ⟨Hg, -, Hs⟩
    isplitl [Hs]; · iexact Hs
    iexact Hg
  hout c := by
    rw [Pipeline.ownSems0_none, show (launchDats m 1 c).Φ (Fin.last _) = Pipeline.ΦA spec1 c from rfl]; unfold Pipeline.ΦA
    iintro ⟨Hs, Hg⟩
    isplitl [Hg]; · iexact Hg
    isplitr; · iempintro
    iexact Hs
  hexit c := by
    have hjoin := Pipeline.unscopedBufs_of_arrays (p := 1) (pcfgs (F := F)) adm (Ix := Unit) (Name := ℕ) (U := UR sig nD τ) (Lvl := ℕ)
      winFacts1 arr_whole1 c (launchDats m) ((launchDats m 1 c).share_full fun _ => rfl) (V2 m c) (fun b => B3 m c b)
      (fun w => (launchDats m 1 c).arrAt w cfg1.N) (fun w => (B3_arr m c w).symm)
      (fun b hb => B3_of m c b fun w e => hb (Finset.mem_image.mpr ⟨w, Finset.mem_univ _, e⟩))
    rw [Between_eq]
    iintro ⟨Ha, HO, Hg, Hrest⟩
    imodintro
    isplitl [Ha Hrest]
    · iapply hjoin; isplitl [Ha] <;> iassumption
    isplitl [Hg]; · iexact Hg
    unfold Pipeline.Dat.owesAt Pipeline.owesWithin
    icases HO with ⟨%W, -, HO⟩
    iexists W; iexact HO

set_option backward.isDefEq.respectTransparency.types false in
/-- Every weakly fair execution ends, faults nowhere, and leaves every unscoped buffer at `B3`. -/
theorem run_all : θ_run (defs (F := F)) (onTc (τ := τ) (main (F := F))) ⟨m, fun _ => 0, ρ⟩
    (fun r => ∀ c : Dev nD, ∀ b ∈ Pipeline.ucRefs τ sig, r.2.mem (((c : Thread nD τ)).1, b) = B3 m c b) :=
  Pipeline.θ_run_regions_kit (pcfgs (F := F)) adm (launchDats m) () cellOf_inj emb₁ defs₀ Variants.none noLevels level0 m ρ main
    [.region (reg0 m), .host (reshapes m), .region (reg1 m)]
    (fun c Q => by rw [main_segs adm (launchDats m) () Variants.none noLevels level0 (reshapes m) (reg0 m) (reg1 m) rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj)
          (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := Between (B0 m)) (Tₙ := fun c => StableHlo.held (c : Thread nD τ) (Pipeline.ucRefs τ sig) (B3 m c))
    (hch := ⟨fun _ => .rfl, fun _ => .rfl, fun _ => .rfl, fun c => by
      show Between (B3 m) c ⊢ _
      iintro ⟨Hh, -, HO⟩
      isplitl [Hh]; · iexact Hh
      iexact HO⟩)
    (hinit := by
      refine Pipeline.initEach noLevels level0 fun c => ?_
      rw [show unscopedBufs c (fun b => m ((c : Thread nD τ).loc b)) = StableHlo.held (c : Thread nD τ) (Pipeline.ucRefs τ sig) (B0 m c)
        from Pipeline.unscopedBufs_held (Ix := Unit) (Name := ℕ) (U := UR sig nD τ) (Lvl := ℕ) c (B0 m c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem ((c : Thread nD τ).1, b) = B3 m c b)
    (hfin := fun c s' => by
      unfold StableHlo.held
      iintro ⟨Hh, HSI⟩
      ihave Hr := (pointsTo_read_all (Pipeline.ucRefs τ sig) (fun b => ((c : Thread nD τ).1, b)) (B3 m c) s') $$ [Hh HSI]
      · isplitl [Hh] <;> iassumption
      icases Hr with ⟨%h, HSI⟩
      imodintro
      isplitr; · ipureintro; exact h
      iexact HSI)
    (hQ := fun _ h => h)

/-- The result buffer ends at what the second launch's write-backs leave, and the six arguments as launched. -/
theorem run_value : θ_run (defs (F := F)) (onTc (τ := τ) (main (F := F))) ⟨m, fun _ => 0, ρ⟩ (fun r => ∀ c : Dev nD,
      r.2.mem ((c.tc : Thread nD τ).loc main_v3) = (Norm.dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    have hb : ∀ (b : Ref sig .tc), (Proc.devRef (τ := τ) .tc b).isScoped = false →
        r.2.mem ((c.tc : Thread nD τ).loc b) = B3 m c (Proc.devRef .tc b) := fun b hs => h c _ (mem_ucRefs_of_unscoped b hs)
    ⟨(hb main_v3 rfl).trans (B3_arr m c 4),
      (hb main_arg0 rfl).trans (B3_untouched m c main_arg0 (by decide) (by decide) (by decide)),
      (hb main_arg1 rfl).trans (B3_input0 m c 0 rfl (by decide) (by decide)),
      (hb main_arg2 rfl).trans (B3_untouched m c main_arg2 (by decide) (by decide) (by decide)),
      (hb main_arg3 rfl).trans (B3_input0 m c 1 rfl (by decide) (by decide)),
      (hb main_arg4 rfl).trans (B3_untouched m c main_arg4 (by decide) (by decide) (by decide)),
      (hb main_arg5 rfl).trans (B3_untouched m c main_arg5 (by decide) (by decide) (by decide))⟩) (run_all m ρ)

/-- The six arguments end as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => (h c).2) (run_value m ρ)

/-- What the second launch finds in the buffers it reads: the staged product and the statistics as the first launch
    left them, the two affine rows reshaped. -/
theorem V2_main_v0_0 (c : Dev nD) : V2 m c main_v0_0 = (MmStats.dat0 (V0 m) c).arrAt 2 cfg0.N :=
  (B2_of m c main_v0_0 (by decide)).trans (B1_arr m c 2)
theorem V2_main_v0_1 (c : Dev nD) : V2 m c main_v0_1 = (MmStats.dat0 (V0 m) c).arrAt 3 cfg0.N :=
  (B2_of m c main_v0_1 (by decide)).trans (B1_arr m c 3)
theorem V2_main_v1 (c : Dev nD) : V2 m c main_v1 = shapeCast S1x512 (m ((c.tc : Thread nD τ).loc main_arg4)) shapeCasts_S512_S1x512 := by
  show StableHlo.after hostOps1 (B1 m c) (Proc.devRef .tc main_v1) = _
  after_results
  rw [B1_of m c main_arg4 (by decide)]
  rfl
theorem V2_main_v2 (c : Dev nD) : V2 m c main_v2 = shapeCast S1x512 (m ((c.tc : Thread nD τ).loc main_arg5)) shapeCasts_S512_S1x512 := by
  show StableHlo.after hostOps1 (B1 m c) (Proc.devRef .tc main_v2) = _
  after_results
  rw [B1_of m c main_arg5 (by decide)]
  rfl

end Cert.Kernel.Whole

end
-- ==== Proof.KI.Reg0.lean ====
/-
  The first launch: 25 row tiles of 4000 rows. At tile t the body forms the tile's product h_t = x_t · Wᵀ, stores it
  (narrowed) as block t of the staged product, and adds the tile's column sums of h_t and of h_t² into rows 0 and 1 of
  an 8 × 512 statistics block that stays in its staging buffer from the first tile to the last: the first tile stores
  its contribution, every later tile adds its own to what the tile before left.
-/
import proofs.«140233_g37288906064498_cont_8to1_b_846_8_alg».proof.Proof.Gen.KernelIdeal.Launch
import proofs.«140233_g37288906064498_cont_8to1_b_846_8_alg».proof.Proof.Gen.KernelIdeal.Skeleton
import proofs.«140233_g37288906064498_cont_8to1_b_846_8_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.MmStats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the launch finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 4000 rows of x that tile `t` reads, and the weight matrix (the same whole matrix at every tile). -/
abbrev xTile (c : Dev nD) (t : Fin cfg0.N) : Vec F S4000x512 .f32 := blk V c 0 t
abbrev wMat (c : Dev nD) (t : Fin cfg0.N) : Vec F S512x512 .f32 := blk V c 1 t

/-- The statistics block after tile `n`: the first tile's contribution, then each later tile's added to what the
    tile before left. -/
def statsAt (c : Dev nD) : (n : ℕ) → n < cfg0.N → Vec F S8x512 .f32
  | 0, hn => k0_pay3 (xTile V c ⟨0, hn⟩) (wMat V c ⟨0, hn⟩)
  | n + 1, hn => k0_pay4 (xTile V c ⟨n + 1, hn⟩) (wMat V c ⟨n + 1, hn⟩) (statsAt c n (Nat.lt_of_succ_lt hn))

/-- What each window's staging buffer holds after the body at tile `t`: the inputs their blocks, the product window
    the tile's narrowed product, the statistics window the running sums. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => k0_pay2 (xTile V c t) (wMat V c t)
    | ⟨3, _⟩ => statsAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk V c 0 t := by dsimp only [dat0]
theorem after0_1 (c : Dev nD) (t : Fin cfg0.N) : (dat0 V c).after 1 t = blk V c 1 t := by dsimp only [dat0]
theorem after0_2 (c : Dev nD) (t : Fin cfg0.N) : (dat0 V c).after 2 t = k0_pay2 (xTile V c t) (wMat V c t) := by dsimp only [dat0]
theorem after0_3 (c : Dev nD) (t : Fin cfg0.N) : (dat0 V c).after 3 t = statsAt V c t.val t.isLt := by dsimp only [dat0]

/-! ## The schedule of the two conditionals and of the statistics window -/

/-- The first conditional is taken at tile 0 only, -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- the second at every later tile. -/
theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two is taken at every grid coordinate: the statistics window is stored into at every tile. -/
theorem stats_live : ∀ i : grid0.Coords, cfg0.idle 3 i = false := by decide +kernel

/-! ## The recursion of the running statistics, read at a tile -/

theorem statsAt_first (c : Dev nD) (t : Fin cfg0.N) (h0 : t.val = 0) :
    statsAt V c t.val t.isLt = k0_pay3 (xTile V c t) (wMat V c t) := by
  obtain ⟨n, hn⟩ := t
  cases n with
  | zero => rfl
  | succ n => exact absurd h0 (Nat.succ_ne_zero n)

theorem statsAt_later (c : Dev nD) (t : Fin cfg0.N) (h0 : t.val ≠ 0) :
    statsAt V c t.val t.isLt
      = k0_pay4 (xTile V c t) (wMat V c t) (statsAt V c (t.val - 1) (Nat.lt_of_le_of_lt (Nat.sub_le _ _) t.isLt)) := by
  obtain ⟨n, hn⟩ := t
  cases n with
  | zero => exact absurd rfl h0
  | succ n => rfl

/-! ## What the body finds in each staging buffer -/

/-- The x window's buffer holds tile `t`'s rows, -/
theorem before0_0 (c : Dev nD) (t : Fin cfg0.N) (d) : (dat0 V c).before 0 t d = blk V c 0 t := by
  rw [(dat0 V c).before_in_eq_fetched 0 rfl (fun _ => rfl) (fun _ _ _ => rfl)
    (fun s => by rw [after0_0]; unfold Dat.blockOf blk; rw [A_eq0]) t d]
  unfold Dat.fetched Dat.blockOf blk; rw [A_eq0]; rfl

/-- the weight window's the whole matrix, fetched at the first tile and left in place since. -/
theorem before0_1 (c : Dev nD) (t : Fin cfg0.N) (d) : (dat0 V c).before 1 t d = blk V c 1 t := by
  rw [(dat0 V c).before_in_eq_fetched 1 rfl (fun _ => rfl) (fun _ _ _ => rfl)
    (fun s => by rw [after0_1]; unfold Dat.blockOf blk; rw [A_eq0]) t d]
  unfold Dat.fetched Dat.blockOf blk; rw [A_eq0]; rfl

/-- After the first tile the statistics window's buffer holds what the tile before left: it is written back only
    after the last tile, it is stored into at every tile, and its block is the whole 8 × 512 array. -/
theorem before0_3 (c : Dev nD) (t : Fin cfg0.N) (h0 : t.val ≠ 0) (d) :
    (dat0 V c).before 3 t d = statsAt V c (t.val - 1) (Nat.lt_of_le_of_lt (Nat.sub_le _ _) t.isLt) := by
  have hN : t.val < 25 := lt_of_lt_of_eq t.isLt (show cfg0.N = 25 from N_0)
  -- the tile before is not the last, so it did not write the block back
  have hkeep : (cfg0.win 3).flush ⟨t.val - 1, Nat.lt_of_le_of_lt (Nat.sub_le _ _) t.isLt⟩ = false := by
    apply Bool.eq_false_iff.mpr
    intro hfl
    have h24 : (t.val - 1) % 25 = 24 := (flush0_3 _).mp hfl
    omega
  rw [Dat.before_out_kept _ 3 rfl t h0 hkeep stats_live (fun _ _ => rfl), after0_3]

/-! ## The body on any whole staging memrefs, in its two cases -/

theorem zeros2 : (![0, 0] : Fin 2 → Nat) = fun _ => 0 := funext fun a => by fin_cases a <;> rfl

/-- One store through the whole-shape rectangle leaves its payload, whatever the buffer held. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (p : S.Idx → Elt F e) :
    v.read (Elt F) (v.writes (Elt F) f [⟨Rect.unit off S.size inb, p⟩]) = p := by
  rw [View.read_writes_eq_canon v f _ (fun y => ⟨_, List.mem_singleton_self _, View.mem_set_unit_zero h inb y⟩),
    View.canon_unit_zero h inb]

/-- A load through the whole-shape rectangle of a whole memref held at `X` reads `X`. -/
theorem load_whole {sp : Space} {S : Shape} {e : EltTy} (m : Memref sig .tc sp S e) (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h inb]

/-- At the first tile: the product window is stored the narrowed product, the statistics window the tile's own
    contribution, whatever either buffer held. -/
theorem run_first (c : Dev nD) (i : grid0.Coords)
    (m1 : Memref sig .tc .vmem S4000x512 .f32) (h1 : m1.IsWhole) (m2 : Memref sig .tc .vmem S512x512 .f32) (h2 : m2.IsWhole)
    (m3 : Memref sig .tc .vmem S4000x512 .bf16) (h3 : m3.IsWhole) (m4 : Memref sig .tc .vmem S8x512 .f32) (h4 : m4.IsWhole)
    (hc1 : k0_cond1 i = 1#1) (hc2 : ¬ k0_cond2 i = 1#1)
    (x : Vec F S4000x512 .f32) (w : Vec F S512x512 .f32) (E : Set ℕ) (K : PUnit → sProp 𝕄) :
    iprop(owns (c : Thread nD τ) m1 fullShare x ∗ owns (c : Thread nD τ) m2 fullShare w
        ∗ (∃ X, owns (c : Thread nD τ) m3 fullShare X) ∗ (∃ X, owns (c : Thread nD τ) m4 fullShare X)
        ∗ (iprop(owns (c : Thread nD τ) m1 fullShare x ∗ owns (c : Thread nD τ) m2 fullShare w
            ∗ owns (c : Thread nD τ) m3 fullShare (k0_pay2 x w) ∗ owns (c : Thread nD τ) m4 fullShare (k0_pay3 x w)) -∗ K ⟨⟩))
      ⊢ wp frame (wpE (defs₀ (F := F)) Variants.none c none) E (cc0__mm_stats_body i m1 h1 m2 h2 m3 h3 m4 h4) K := by
  simp only [cc0__mm_stats_body_eq_skeleton]; unfold cc0__mm_stats_body_skel
  unfold owns
  iintro ⟨⟨%f1, %hf1, H1⟩, ⟨%f2, %hf2, H2⟩, ⟨%X3, %f3, %hf3, H3⟩, ⟨%X4, %f4, %hf4, H4⟩, Hk⟩
  obtain rfl := h1.eq_unread hf1; obtain rfl := h2.eq_unread hf2
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole (S := S4000x512) m3.view f3 zeros2, load_whole (S := S4000x512) m1 h1 zeros2, load_whole (S := S512x512) m2 h2 zeros2]
  · iexists _; isplitr
    swap; · iexact H4
    ipureintro
    rw [read_store_whole (S := S8x512) m4.view f4 zeros2, load_whole (S := S4000x512) m1 h1 zeros2, load_whole (S := S512x512) m2 h2 zeros2]

/-- At a later tile: the product window likewise; the statistics window, found at `s`, is left at `s` with the
    tile's contribution added. -/
theorem run_later (c : Dev nD) (i : grid0.Coords)
    (m1 : Memref sig .tc .vmem S4000x512 .f32) (h1 : m1.IsWhole) (m2 : Memref sig .tc .vmem S512x512 .f32) (h2 : m2.IsWhole)
    (m3 : Memref sig .tc .vmem S4000x512 .bf16) (h3 : m3.IsWhole) (m4 : Memref sig .tc .vmem S8x512 .f32) (h4 : m4.IsWhole)
    (hc1 : ¬ k0_cond1 i = 1#1) (hc2 : k0_cond2 i = 1#1)
    (x : Vec F S4000x512 .f32) (w : Vec F S512x512 .f32) (s : Vec F S8x512 .f32) (E : Set ℕ) (K : PUnit → sProp 𝕄) :
    iprop(owns (c : Thread nD τ) m1 fullShare x ∗ owns (c : Thread nD τ) m2 fullShare w
        ∗ (∃ X, owns (c : Thread nD τ) m3 fullShare X) ∗ owns (c : Thread nD τ) m4 fullShare s
        ∗ (iprop(owns (c : Thread nD τ) m1 fullShare x ∗ owns (c : Thread nD τ) m2 fullShare w
            ∗ owns (c : Thread nD τ) m3 fullShare (k0_pay2 x w) ∗ owns (c : Thread nD τ) m4 fullShare (k0_pay4 x w s)) -∗ K ⟨⟩))
      ⊢ wp frame (wpE (defs₀ (F := F)) Variants.none c none) E (cc0__mm_stats_body i m1 h1 m2 h2 m3 h3 m4 h4) K := by
  simp only [cc0__mm_stats_body_eq_skeleton]; unfold cc0__mm_stats_body_skel
  unfold owns
  iintro ⟨⟨%f1, %hf1, H1⟩, ⟨%f2, %hf2, H2⟩, ⟨%X3, %f3, %hf3, H3⟩, ⟨%f4, %hf4, H4⟩, Hk⟩
  obtain rfl := h1.eq_unread hf1; obtain rfl := h2.eq_unread hf2; obtain rfl := h4.eq_unread hf4
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole (S := S4000x512) m3.view f3 zeros2, load_whole (S := S4000x512) m1 h1 zeros2, load_whole (S := S512x512) m2 h2 zeros2]
  · iexists _; isplitr
    swap; · iexact H4
    ipureintro
    rw [read_store_whole (S := S8x512) m4.view _ zeros2, load_whole (S := S4000x512) m1 h1 zeros2, load_whole (S := S512x512) m2 h2 zeros2,
      load_whole (S := S8x512) m4 h4 zeros2]

/-! ## The body at a tile of the grid -/

/-- What the body is handed at tile `t`: the invariant, nothing owed, and each window's current buffer at what it
    then holds, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (dat0 V c).leavesExact 3 t)

theorem sound_body0 (c : Dev nD) (t : Fin cfg0.N) :
    pre0 V c t ⊢ wp frame (wpE (defs₀ (F := F)) Variants.none c none) Set.univ (bodyAt0 t) (fun _ => post0 V c t) := by
  unfold pre0 post0 bodyAt0 Dat.leavesExact
  rw [stats_live]
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [statsAt_first V c t h0]
    iintro ⟨HΦ, Ho, ⟨%d0, H0⟩, ⟨%d1, H1⟩, ⟨%d2, H2⟩, ⟨%d3, H3⟩⟩
    iapply (run_first c (grid0.coords t) _ _ _ _ _ _ _ _ ((cond1_iff t).mpr h0) (fun h => (cond2_iff t).mp h h0)
      (blk V c 0 t) (blk V c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [statsAt_later V c t h0]
    simp only [before0_3 V c t h0]
    iintro ⟨HΦ, Ho, ⟨%d0, H0⟩, ⟨%d1, H1⟩, ⟨%d2, H2⟩, ⟨%d3, H3⟩⟩
    iapply (run_later c (grid0.coords t) _ _ _ _ _ _ _ _ (fun h => h0 ((cond1_iff t).mp h)) ((cond2_iff t).mpr h0)
      (blk V c 0 t) (blk V c 1 t) _ Set.univ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body, at every tile, takes the staging buffers from what the pipeline hands it to what `dat0` says. -/
theorem body_obligation0 (c : Dev nD) : BodyObligation (dat0 (F := F) V c) (defs₀ (F := F)) Variants.none () Set.univ := fun t => by
  rw [bigSep_W0, bigSep_W0]
  exact sound_body0 V c t

end Cert.KernelIdeal.MmStats

end
-- ==== Proof.KI.Reg1.lean ====
/-
  The second launch: 20 row tiles of 5000 rows. Every tile reads the whole statistics block and the two affine rows,
  forms from them one scale and one shift per column, and stores max(h · scale + shift, 0) for its rows of the staged
  product h.
-/
import proofs.«140233_g37288906064498_cont_8to1_b_846_8_alg».proof.Proof.Gen.KernelIdeal.Launch
import proofs.«140233_g37288906064498_cont_8to1_b_846_8_alg».proof.Proof.Gen.KernelIdeal.Skeleton
import proofs.«140233_g37288906064498_cont_8to1_b_846_8_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the launch finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What each window's staging buffer holds after the body at tile `t`: the four inputs their blocks, the output the
    normalised, shifted and clamped rows. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => k1_pay1 (blk V c 1 t) (blk V c 2 t) (blk V c 3 t) (blk V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk V c 0 t := by dsimp only [dat1]
theorem after1_1 (c : Dev nD) (t : Fin cfg1.N) : (dat1 V c).after 1 t = blk V c 1 t := by dsimp only [dat1]
theorem after1_2 (c : Dev nD) (t : Fin cfg1.N) : (dat1 V c).after 2 t = blk V c 2 t := by dsimp only [dat1]
theorem after1_3 (c : Dev nD) (t : Fin cfg1.N) : (dat1 V c).after 3 t = blk V c 3 t := by dsimp only [dat1]
theorem after1_4 (c : Dev nD) (t : Fin cfg1.N) :
    (dat1 V c).after 4 t = k1_pay1 (blk V c 1 t) (blk V c 2 t) (blk V c 3 t) (blk V c 0 t) := by dsimp only [dat1]

/-! ### What the body finds in the four input buffers

None of the four input windows is cut or idle, and the body leaves each one's block where it found it. So each staging
buffer holds its window's block at every tile: the product's window is fetched anew at each tile, and the other three,
whose block index never moves, are fetched at the first tile and still hold that same block at the nineteen after it. -/

/-- The product's staging buffer holds the tile's 5000 rows of the staged product. -/
theorem found1_0 (c : Dev nD) (t : Fin cfg1.N) (d) : (dat1 V c).before 0 t d = blk V c 0 t := by
  have hkeep : ∀ s, (cfg1.win 0).cut (cfg1.grid.coords s) ((dat1 V c).after 0 s) = (dat1 V c).blockOf 0 s := by
    intro s; rw [after1_0]; unfold Dat.blockOf blk; rw [A_eq1]
  rw [(dat1 V c).before_in_eq_fetched 0 rfl (fun _ => rfl) (fun _ _ _ => rfl) hkeep t d]
  unfold Dat.fetched Dat.blockOf blk; rw [A_eq1]; rfl

/-- The statistics' staging buffer holds the whole statistics block. -/
theorem found1_1 (c : Dev nD) (t : Fin cfg1.N) (d) : (dat1 V c).before 1 t d = blk V c 1 t := by
  have hkeep : ∀ s, (cfg1.win 1).cut (cfg1.grid.coords s) ((dat1 V c).after 1 s) = (dat1 V c).blockOf 1 s := by
    intro s; rw [after1_1]; unfold Dat.blockOf blk; rw [A_eq1]
  rw [(dat1 V c).before_in_eq_fetched 1 rfl (fun _ => rfl) (fun _ _ _ => rfl) hkeep t d]
  unfold Dat.fetched Dat.blockOf blk; rw [A_eq1]; rfl

/-- The scale row's staging buffer holds the row. -/
theorem found1_2 (c : Dev nD) (t : Fin cfg1.N) (d) : (dat1 V c).before 2 t d = blk V c 2 t := by
  have hkeep : ∀ s, (cfg1.win 2).cut (cfg1.grid.coords s) ((dat1 V c).after 2 s) = (dat1 V c).blockOf 2 s := by
    intro s; rw [after1_2]; unfold Dat.blockOf blk; rw [A_eq1]
  rw [(dat1 V c).before_in_eq_fetched 2 rfl (fun _ => rfl) (fun _ _ _ => rfl) hkeep t d]
  unfold Dat.fetched Dat.blockOf blk; rw [A_eq1]; rfl

/-- The shift row's staging buffer holds the row. -/
theorem found1_3 (c : Dev nD) (t : Fin cfg1.N) (d) : (dat1 V c).before 3 t d = blk V c 3 t := by
  have hkeep : ∀ s, (cfg1.win 3).cut (cfg1.grid.coords s) ((dat1 V c).after 3 s) = (dat1 V c).blockOf 3 s := by
    intro s; rw [after1_3]; unfold Dat.blockOf blk; rw [A_eq1]
  rw [(dat1 V c).before_in_eq_fetched 3 rfl (fun _ => rfl) (fun _ _ _ => rfl) hkeep t d]
  unfold Dat.fetched Dat.blockOf blk; rw [A_eq1]; rfl

/-! ### Loads and the store through a whole buffer

Every access of the body goes through the rectangle at offsets `[0, 0]` of its buffer's own sizes: all of the buffer. -/

theorem zeros2 : (![0, 0] : Fin 2 → Nat) = fun _ => 0 := funext fun a => by fin_cases a <;> rfl

/-- The one store's rectangle holds every index of the output block. -/
theorem store_covers (w : Vec F S5000x512 .f32) (y : S5000x512.Idx) :
    ∃ p ∈ ([⟨Rect.unit (s := S5000x512) ![0, 0] S5000x512.size inb_S5000x512_S5000x512_0_0, w⟩] : List (View.Piece (Elt F) S5000x512 .f32)),
      y ∈ p.1.set :=
  ⟨⟨Rect.unit (s := S5000x512) ![0, 0] S5000x512.size inb_S5000x512_S5000x512_0_0, w⟩, List.mem_singleton_self _,
    View.mem_set_unit_zero (S := S5000x512) zeros2 inb_S5000x512_S5000x512_0_0 y⟩

/-- So after it the buffer reads the stored value, whatever it held. -/
theorem whole_store_reads {v : View sig .tc .vmem S5000x512 .f32} (f : v.ty.Contents (Elt F)) (w : Vec F S5000x512 .f32) :
    v.read (Elt F) (v.writes (Elt F) f [⟨Rect.unit (s := S5000x512) ![0, 0] S5000x512.size inb_S5000x512_S5000x512_0_0, w⟩]) = w := by
  rw [View.read_writes_eq_canon _ _ _ (store_covers w), View.canon_unit_zero (S := S5000x512) zeros2]

/-! ### One tile of the body

The body names no tile coordinate and no buffer but its five arguments: it loads each of them whole and stores one value,
whole, into the fifth. -/

/-- On any five whole staging memrefs, the four inputs read `h`, `s`, `g`, `b` and the fifth anything: the body ends with
    the inputs as they were and the fifth reading `k1_pay1 s g b h`. -/
theorem norm_tile (c : Dev nD) (E : Set ℕ) (i : grid1.Coords)
    (mh : Memref sig .tc .vmem S5000x512 .bf16) (wh : mh.IsWhole) (ms : Memref sig .tc .vmem S8x512 .f32) (ws : ms.IsWhole)
    (mg : Memref sig .tc .vmem S1x512 .f32) (wg : mg.IsWhole) (mb : Memref sig .tc .vmem S1x512 .f32) (wb : mb.IsWhole)
    (mo : Memref sig .tc .vmem S5000x512 .f32) (wo : mo.IsWhole)
    (h : Vec F S5000x512 .bf16) (s : Vec F S8x512 .f32) (g b : Vec F S1x512 .f32) (K : PUnit → sProp 𝕄) :
    iprop(owns (c : Thread nD τ) mh fullShare h ∗ owns (c : Thread nD τ) ms fullShare s ∗ owns (c : Thread nD τ) mg fullShare g
        ∗ owns (c : Thread nD τ) mb fullShare b ∗ (∃ d, owns (c : Thread nD τ) mo fullShare d)
        ∗ (iprop(owns (c : Thread nD τ) mh fullShare h ∗ owns (c : Thread nD τ) ms fullShare s ∗ owns (c : Thread nD τ) mg fullShare g
            ∗ owns (c : Thread nD τ) mb fullShare b ∗ owns (c : Thread nD τ) mo fullShare (k1_pay1 s g b h)) -∗ K ⟨⟩))
      ⊢ wp frame (wpE (defs₀ (F := F)) Variants.none c none) E (cc1__norm_body i mh wh ms ws mg wg mb wb mo wo) K := by
  simp only [cc1__norm_body_eq_skeleton]; unfold cc1__norm_body_skel
  unfold owns
  iintro ⟨⟨%fh, %eh, Hh⟩, ⟨%fs, %es, Hs⟩, ⟨%fg, %eg, Hg⟩, ⟨%fb, %eb, Hb⟩, ⟨%d, %fo, -, Ho⟩, Hk⟩
  subst eh es eg eb
  sl_exec
  sl_step
  iapply Hk
  isplitl [Hh]
  · iexists fh; isplitr; · ipureintro; rfl
    iexact Hh
  isplitl [Hs]
  · iexists fs; isplitr; · ipureintro; rfl
    iexact Hs
  isplitl [Hg]
  · iexists fg; isplitr; · ipureintro; rfl
    iexact Hg
  isplitl [Hb]
  · iexists fb; isplitr; · ipureintro; rfl
    iexact Hb
  iexists _; isplitr
  swap; · iexact Ho
  ipureintro
  -- the store leaves its value, and each load read all of its buffer
  rw [whole_store_reads]
  simp only [View.readAt_eq_ld, View.ld_unit_zero (S := S8x512) zeros2, View.ld_unit_zero (S := S1x512) zeros2,
    View.ld_unit_zero (S := S5000x512) zeros2]

/-! ### The obligation at a tile -/

/-- What the pipeline hands the body at tile `t`: the launch's invariant, what the core owes, and each window's current
    staging buffer at what it then holds. -/
def tilePre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back: the same invariant and debt, and each of those buffers at what `dat1` says it leaves. -/
def tilePost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At every tile the body takes the one to the other: the four input buffers hold their blocks (`found1_0` … `found1_3`),
    `norm_tile` runs on them, and the invariant and the debt, which the body never touches, are the same at both ends. -/
theorem sound_body1 (c : Dev nD) (t : Fin cfg1.N) :
    tilePre V c t ⊢ wp frame (wpE (defs₀ (F := F)) Variants.none c none) Set.univ (bodyAt1 t) (fun _ => tilePost V c t) := by
  unfold tilePre tilePost bodyAt1
  simp only [found1_0, found1_1, found1_2, found1_3]
  rw [after1_0, after1_1, after1_2, after1_3, after1_4,
    show (dat1 V c).Φ t.succ = (dat1 V c).Φ t.castSucc from rfl,
    show (dat1 V c).owesAt () t.succ = (dat1 V c).owesAt () t.castSucc from rfl]
  iintro ⟨HΦ, Howe, ⟨%d0, H0⟩, ⟨%d1, H1⟩, ⟨%d2, H2⟩, ⟨%d3, H3⟩, ⟨%d4, H4⟩⟩
  iapply (norm_tile c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Howe]; · iexact Howe
  isplitl [H0]; · iexact H0
  isplitl [H1]; · iexact H1
  isplitl [H2]; · iexact H2
  isplitl [H3]; · iexact H3
  iexact H4

/-- The body, at every tile, takes the staging buffers from what the pipeline hands it to what `dat1` says. -/
theorem body_obligation1 (c : Dev nD) : BodyObligation (dat1 (F := F) V c) (defs₀ (F := F)) Variants.none () Set.univ :=
  fun t => by
    rw [bigSep_W1, bigSep_W1]
    exact sound_body1 V c t

end Cert.KernelIdeal.Norm

end
-- ==== Proof.KI.Run.lean ====
/-
  The whole program on one core: the first launch, the two reshapes of the affine rows, the second launch. The
  buffers' contents are followed from the launch to the return: the first launch changes only the staged product and
  the statistics, the reshapes write the two row buffers, the second launch changes only the result.
-/
import proofs.«140233_g37288906064498_cont_8to1_b_846_8_alg».proof.Proof.KI.Reg0
import proofs.«140233_g37288906064498_cont_8to1_b_846_8_alg».proof.Proof.KI.Reg1
import proofs.«140233_g37288906064498_cont_8to1_b_846_8_alg».proof.Proof.Gen.KernelIdeal.Regions
import Idealize.ShloMosaic.Lib.Pipeline.RegionsLoop
import Idealize.ShloMosaic.Lib.Pipeline.FrameSuffix
import Idealize.ShloMosaic.Lib.Pipeline.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers at the launch. -/
abbrev B0 : Dev nD → Valuation τ sig (Elt F) := fun c b => m ((c : Dev nD), b)
abbrev V0 : (c : Dev nD) → (b : Ref sig .tc) → Buf (Elt F) ((c : Thread nD τ).loc b) := fun c b => B0 m c b
/-- After the first launch: its arrays at what its write-backs leave, every other buffer as before. -/
def B1 (c : Dev nD) : Valuation τ sig (Elt F) :=
  Pipeline.withArrays spec0 c (B0 m c) fun w => (MmStats.dat0 (V0 m) c).arrAt w cfg0.N
/-- After the two reshapes. -/
abbrev B2 : Dev nD → Valuation τ sig (Elt F) := fun c => StableHlo.after hostOps1 (B1 m c)
abbrev V2 : (c : Dev nD) → (b : Ref sig .tc) → Buf (Elt F) ((c : Thread nD τ).loc b) := fun c b => B2 m c b
/-- After the second launch. -/
def B3 (c : Dev nD) : Valuation τ sig (Elt F) :=
  Pipeline.withArrays spec1 c (B2 m c) fun w => (Norm.dat1 (V2 m) c).arrAt w cfg1.N

/-! ## What each item changes and what it leaves -/

/-- The first launch leaves each of its four arrays at what its write-backs make of it, -/
theorem B1_arr (c : Dev nD) (w : Fin cfg0.W) :
    B1 m c (Proc.devRef .tc (Pipeline.arrRef spec0 w)) = (MmStats.dat0 (V0 m) c).arrAt w cfg0.N :=
  Pipeline.withArrays_arr spec0 winFacts0.arr_inj c (B0 m c) _ w
/-- and every other buffer as it found it. -/
theorem B1_of (c : Dev nD) (r : Ref sig .tc) (h : ∀ w, Pipeline.arrRef spec0 w ≠ r) :
    B1 m c (Proc.devRef .tc r) = B0 m c (Proc.devRef .tc r) :=
  Pipeline.withArrays_of_ne spec0 c (B0 m c) _ r h
/-- The reshapes write the two row buffers only. -/
theorem B2_of (c : Dev nD) (r : Ref sig .tc) (h : r ∉ hostOps1_W) :
    B2 m c (Proc.devRef .tc r) = B1 m c (Proc.devRef .tc r) :=
  StableHlo.after_of_writes_sub hostOps1 (B1 m c) hostOps1_writes h
/-- The second launch leaves each of its five arrays at what its write-backs make of it, -/
theorem B3_arr (c : Dev nD) (w : Fin cfg1.W) :
    B3 m c (Proc.devRef .tc (Pipeline.arrRef spec1 w)) = (Norm.dat1 (V2 m) c).arrAt w cfg1.N :=
  Pipeline.withArrays_arr spec1 winFacts1.arr_inj c (B2 m c) _ w
/-- and every other buffer as it found it. -/
theorem B3_of (c : Dev nD) (r : Ref sig .tc) (h : ∀ w, Pipeline.arrRef spec1 w ≠ r) :
    B3 m c (Proc.devRef .tc r) = B2 m c (Proc.devRef .tc r) :=
  Pipeline.withArrays_of_ne spec1 c (B2 m c) _ r h

/-- A buffer that neither launch stages as an output and no reshape writes holds at the end what it held at the launch. -/
theorem B3_untouched (c : Dev nD) (r : Ref sig .tc) (h1 : ∀ w, Pipeline.arrRef spec1 w ≠ r) (hh : r ∉ hostOps1_W)
    (h0 : ∀ w, Pipeline.arrRef spec0 w ≠ r) : B3 m c (Proc.devRef .tc r) = m ((c.tc : Thread nD τ).loc r) :=
  (B3_of m c r h1).trans ((B2_of m c r hh).trans (B1_of m c r h0))
/-- An input array of the first launch that nothing else writes holds at the end what it held at the launch. -/
theorem B3_input0 (c : Dev nD) (w : Fin cfg0.W) (hin : (cfg0.win w).isOut = false)
    (h1 : ∀ w', Pipeline.arrRef spec1 w' ≠ Pipeline.arrRef spec0 w) (hh : Pipeline.arrRef spec0 w ∉ hostOps1_W) :
    B3 m c (Proc.devRef .tc (Pipeline.arrRef spec0 w)) = m ((c.tc : Thread nD τ).loc (Pipeline.arrRef spec0 w)) :=
  (B3_of m c _ h1).trans ((B2_of m c _ hh).trans ((B1_arr m c w).trans ((MmStats.dat0 (V0 m) c).arrAt_in w hin cfg0.N)))

/-- An unscoped reference of the core is among the buffers every item holds. -/
theorem mem_ucRefs_of_unscoped (b : Ref sig .tc) (hb : (Proc.devRef (τ := τ) .tc b).isScoped = false) :
    Proc.devRef .tc b ∈ Pipeline.ucRefs τ sig :=
  Finset.mem_filter.mpr ⟨StableHlo.devRef_mem_tcRefs b, fun h => Bool.false_ne_true (hb.symm.trans h)⟩

/-! ## The two launches and the reshapes as items of one run -/

/-- No core owes another anything: no level is assigned. -/
abbrev noLevels : GSem nD τ sig → Finset Unit := fun _ => ∅
abbrev level0 : GSem nD τ sig → Unit → ℕ := fun _ _ => 0

/-- Both launches' proof data: the first reads the buffers as launched, the second as the reshapes leave them. -/
def launchDats : (p : Fin 2) → (c : Dev nD) → Dat τ (Elt F) Unit ℕ (UR sig nD τ) ℕ (Pipeline.pin (pcfgs (F := F)) adm p) c
  | ⟨0, _⟩ => fun c => MmStats.dat0 (V0 m) c
  | ⟨1, _⟩ => fun c => Norm.dat1 (V2 m) c

/-- What a core carries between two items besides its buffers: the generator register at some state, nothing owed. -/
abbrev Carried (c : Dev nD) : sProp 𝕄 :=
  iprop((∃ r, prngReg c r) ∗ ∃ W, owes (c : Thread nD τ) (0 : CellTallies nD τ sig Unit) W)

/-- A core between two items: every unscoped buffer held at `B c`, beside the rest. -/
abbrev Between (B : Dev nD → Valuation τ sig (Elt F)) (c : Dev nD) : sProp 𝕄 :=
  iprop(StableHlo.held (c : Thread nD τ) (Pipeline.ucRefs τ sig) (B c) ∗ Carried c)

/-- The buffers of a core between two items, as the launch theorems spell them. -/
theorem Between_eq (B : Dev nD → Valuation τ sig (Elt F)) (c : Dev nD) :
    (Between B c : sProp 𝕄) = iprop(unscopedBufs c (fun b => B c b) ∗ Carried c) := by
  rw [Pipeline.unscopedBufs_held (Ix := Unit) (Name := ℕ) (U := UR sig nD τ) (Lvl := ℕ) c (B c)]

/-- A launch prefetches no table: the tables' part of an entry is empty. -/
theorem noTables (p : Fin 2) (c : Dev nD) :
    (BI.emp : sProp 𝕄) ⊢ Pipeline.prefHeld (pcfgs (F := F) p).pre c (fun _ => fullShare) (adm (F := F) p).1 := by
  unfold Pipeline.prefHeld
  rw [show (Finset.univ : Finset (Fin 0)) = ∅ from rfl, BI.bigSep_empty]

-- the configuration at a launch's index is this launch's only after unfolding: unification must be allowed to unfold
-- plain definitions inside a metavariable's type (here and for the second launch and the run below)
set_option backward.isDefEq.respectTransparency.types false in
/-- THE FIRST LAUNCH: entered with the buffers as launched, left with its four arrays at what its write-backs make of
    them and every other buffer untouched. Its arrays go to the pipeline, the generator register to the class
    invariant, the other buffers around the region. -/
def reg0 : Pipeline.RegionSeg (pcfgs (F := F)) adm (launchDats m) () defs₀ Variants.none noLevels level0 0 where
  win := winFacts0.to₀
  block_pos := block_pos0
  stage_whole := stage_whole0
  K := PEmpty
  osem k := k.elim
  ho := Pipeline.OwnSemFacts.none _
  hbody c := (MmStats.body_obligation0 (V0 m) c).loose
  hwaits := Pipeline.hwaits_of_owed_zero _ _ _ _ noLevels level0 0 fun _ _ => rfl
  pre := Between (B0 m)
  post := Between (B1 m)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none, Between_eq]
    have hsplit := Pipeline.arrays_of_unscopedBufs (p := 0) (pcfgs (F := F)) adm (launchDats m) winFacts0 arr_whole0 c
      ((launchDats m 0 c).share_full fun _ => rfl) (V0 m c) fun _ => rfl
    iintro ⟨⟨Hub, Hg, HO⟩, -, -⟩
    ihave H := hsplit $$ Hub
    icases H with ⟨Ha, Hrest⟩
    imodintro
    isplitl [Ha]; · iexact Ha
    isplitr; · iapply (noTables 0 c); iempintro
    isplitl [HO]
    · unfold Pipeline.Dat.owesAt Pipeline.owesWithin
      icases HO with ⟨%W, HO⟩
      iexists W; isplitr; · ipureintro; exact fun x _ => Or.inl (Set.mem_univ x)
      iexact HO
    isplitl [Hg]; · iexact Hg
    iexact Hrest
  hin c := by
    rw [show (launchDats m 0 c).Φ 0 = Pipeline.ΦA spec0 c from rfl]; unfold Pipeline.ΦA
    iintro ⟨Hg, -, Hs⟩
    isplitl [Hs]; · iexact Hs
    iexact Hg
  hout c := by
    rw [Pipeline.ownSems0_none, show (launchDats m 0 c).Φ (Fin.last _) = Pipeline.ΦA spec0 c from rfl]; unfold Pipeline.ΦA
    iintro ⟨Hs, Hg⟩
    isplitl [Hg]; · iexact Hg
    isplitr; · iempintro
    iexact Hs
  hexit c := by
    have hjoin := Pipeline.unscopedBufs_of_arrays (p := 0) (pcfgs (F := F)) adm (Ix := Unit) (Name := ℕ) (U := UR sig nD τ) (Lvl := ℕ)
      winFacts0 arr_whole0 c (launchDats m) ((launchDats m 0 c).share_full fun _ => rfl) (V0 m c) (fun b => B1 m c b)
      (fun w => (launchDats m 0 c).arrAt w cfg0.N) (fun w => (B1_arr m c w).symm)
      (fun b hb => B1_of m c b fun w e => hb (Finset.mem_image.mpr ⟨w, Finset.mem_univ _, e⟩))
    rw [Between_eq]
    iintro ⟨Ha, HO, Hg, Hrest⟩
    imodintro
    isplitl [Ha Hrest]
    · iapply hjoin; isplitl [Ha] <;> iassumption
    isplitl [Hg]; · iexact Hg
    unfold Pipeline.Dat.owesAt Pipeline.owesWithin
    icases HO with ⟨%W, -, HO⟩
    iexists W; iexact HO

/-- THE RESHAPES, over the unscoped buffers as the first launch leaves them. -/
def reshapes : Pipeline.HostSeg (Name := ℕ) (U := UR sig nD τ) (pcfgs (F := F)) defs₀ Variants.none noLevels level0 :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 m) Carried

set_option backward.isDefEq.respectTransparency.types false in
/-- THE SECOND LAUNCH: entered with the buffers as the reshapes leave them, left with its five arrays at what its
    write-backs make of them (only the result's change) and every other buffer untouched. -/
def reg1 : Pipeline.RegionSeg (pcfgs (F := F)) adm (launchDats m) () defs₀ Variants.none noLevels level0 1 where
  win := winFacts1.to₀
  block_pos := block_pos1
  stage_whole := stage_whole1
  K := PEmpty
  osem k := k.elim
  ho := Pipeline.OwnSemFacts.none _
  hbody c := (Norm.body_obligation1 (V2 m) c).loose
  hwaits := Pipeline.hwaits_of_owed_zero _ _ _ _ noLevels level0 1 fun _ _ => rfl
  pre := Between (B2 m)
  post := Between (B3 m)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none, Between_eq]
    have hsplit := Pipeline.arrays_of_unscopedBufs (p := 1) (pcfgs (F := F)) adm (launchDats m) winFacts1 arr_whole1 c
      ((launchDats m 1 c).share_full fun _ => rfl) (V2 m c) fun _ => rfl
    iintro ⟨⟨Hub, Hg, HO⟩, -, -⟩
    ihave H := hsplit $$ Hub
    icases H with ⟨Ha, Hrest⟩
    imodintro
    isplitl [Ha]; · iexact Ha
    isplitr; · iapply (noTables 1 c); iempintro
    isplitl [HO]
    · unfold Pipeline.Dat.owesAt Pipeline.owesWithin
      icases HO with ⟨%W, HO⟩
      iexists W; isplitr; · ipureintro; exact fun x _ => Or.inl (Set.mem_univ x)
      iexact HO
    isplitl [Hg]; · iexact Hg
    iexact Hrest
  hin c := by
    rw [show (launchDats m 1 c).Φ 0 = Pipeline.ΦA spec1 c from rfl]; unfold Pipeline.ΦA
    iintro ⟨Hg, -, Hs⟩
    isplitl [Hs]; · iexact Hs
    iexact Hg
  hout c := by
    rw [Pipeline.ownSems0_none, show (launchDats m 1 c).Φ (Fin.last _) = Pipeline.ΦA spec1 c from rfl]; unfold Pipeline.ΦA
    iintro ⟨Hs, Hg⟩
    isplitl [Hg]; · iexact Hg
    isplitr; · iempintro
    iexact Hs
  hexit c := by
    have hjoin := Pipeline.unscopedBufs_of_arrays (p := 1) (pcfgs (F := F)) adm (Ix := Unit) (Name := ℕ) (U := UR sig nD τ) (Lvl := ℕ)
      winFacts1 arr_whole1 c (launchDats m) ((launchDats m 1 c).share_full fun _ => rfl) (V2 m c) (fun b => B3 m c b)
      (fun w => (launchDats m 1 c).arrAt w cfg1.N) (fun w => (B3_arr m c w).symm)
      (fun b hb => B3_of m c b fun w e => hb (Finset.mem_image.mpr ⟨w, Finset.mem_univ _, e⟩))
    rw [Between_eq]
    iintro ⟨Ha, HO, Hg, Hrest⟩
    imodintro
    isplitl [Ha Hrest]
    · iapply hjoin; isplitl [Ha] <;> iassumption
    isplitl [Hg]; · iexact Hg
    unfold Pipeline.Dat.owesAt Pipeline.owesWithin
    icases HO with ⟨%W, -, HO⟩
    iexists W; iexact HO

set_option backward.isDefEq.respectTransparency.types false in
/-- Every weakly fair execution ends, faults nowhere, and leaves every unscoped buffer at `B3`. -/
theorem run_all : θ_run (defs (F := F)) (onTc (τ := τ) (main (F := F))) ⟨m, fun _ => 0, ρ⟩
    (fun r => ∀ c : Dev nD, ∀ b ∈ Pipeline.ucRefs τ sig, r.2.mem (((c : Thread nD τ)).1, b) = B3 m c b) :=
  Pipeline.θ_run_regions_kit (pcfgs (F := F)) adm (launchDats m) () cellOf_inj emb₁ defs₀ Variants.none noLevels level0 m ρ main
    [.region (reg0 m), .host (reshapes m), .region (reg1 m)]
    (fun c Q => by rw [main_segs adm (launchDats m) () Variants.none noLevels level0 (reshapes m) (reg0 m) (reg1 m) rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj)
          (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := Between (B0 m)) (Tₙ := fun c => StableHlo.held (c : Thread nD τ) (Pipeline.ucRefs τ sig) (B3 m c))
    (hch := ⟨fun _ => .rfl, fun _ => .rfl, fun _ => .rfl, fun c => by
      show Between (B3 m) c ⊢ _
      iintro ⟨Hh, -, HO⟩
      isplitl [Hh]; · iexact Hh
      iexact HO⟩)
    (hinit := by
      refine Pipeline.initEach noLevels level0 fun c => ?_
      rw [show unscopedBufs c (fun b => m ((c : Thread nD τ).loc b)) = StableHlo.held (c : Thread nD τ) (Pipeline.ucRefs τ sig) (B0 m c)
        from Pipeline.unscopedBufs_held (Ix := Unit) (Name := ℕ) (U := UR sig nD τ) (Lvl := ℕ) c (B0 m c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem ((c : Thread nD τ).1, b) = B3 m c b)
    (hfin := fun c s' => by
      unfold StableHlo.held
      iintro ⟨Hh, HSI⟩
      ihave Hr := (pointsTo_read_all (Pipeline.ucRefs τ sig) (fun b => ((c : Thread nD τ).1, b)) (B3 m c) s') $$ [Hh HSI]
      · isplitl [Hh] <;> iassumption
      icases Hr with ⟨%h, HSI⟩
      imodintro
      isplitr; · ipureintro; exact h
      iexact HSI)
    (hQ := fun _ h => h)

/-- The result buffer ends at what the second launch's write-backs leave, and the six arguments as launched. -/
theorem run_value : θ_run (defs (F := F)) (onTc (τ := τ) (main (F := F))) ⟨m, fun _ => 0, ρ⟩ (fun r => ∀ c : Dev nD,
      r.2.mem ((c.tc : Thread nD τ).loc main_v3) = (Norm.dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    have hb : ∀ (b : Ref sig .tc), (Proc.devRef (τ := τ) .tc b).isScoped = false →
        r.2.mem ((c.tc : Thread nD τ).loc b) = B3 m c (Proc.devRef .tc b) := fun b hs => h c _ (mem_ucRefs_of_unscoped b hs)
    ⟨(hb main_v3 rfl).trans (B3_arr m c 4),
      (hb main_arg0 rfl).trans (B3_untouched m c main_arg0 (by decide) (by decide) (by decide)),
      (hb main_arg1 rfl).trans (B3_input0 m c 0 rfl (by decide) (by decide)),
      (hb main_arg2 rfl).trans (B3_untouched m c main_arg2 (by decide) (by decide) (by decide)),
      (hb main_arg3 rfl).trans (B3_input0 m c 1 rfl (by decide) (by decide)),
      (hb main_arg4 rfl).trans (B3_untouched m c main_arg4 (by decide) (by decide) (by decide)),
      (hb main_arg5 rfl).trans (B3_untouched m c main_arg5 (by decide) (by decide) (by decide))⟩) (run_all m ρ)

/-- The six arguments end as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => (h c).2) (run_value m ρ)

/-- What the second launch finds in the buffers it reads: the staged product and the statistics as the first launch
    left them, the two affine rows reshaped. -/
theorem V2_main_v0_0 (c : Dev nD) : V2 m c main_v0_0 = (MmStats.dat0 (V0 m) c).arrAt 2 cfg0.N :=
  (B2_of m c main_v0_0 (by decide)).trans (B1_arr m c 2)
theorem V2_main_v0_1 (c : Dev nD) : V2 m c main_v0_1 = (MmStats.dat0 (V0 m) c).arrAt 3 cfg0.N :=
  (B2_of m c main_v0_1 (by decide)).trans (B1_arr m c 3)
theorem V2_main_v1 (c : Dev nD) : V2 m c main_v1 = shapeCast S1x512 (m ((c.tc : Thread nD τ).loc main_arg4)) shapeCasts_S512_S1x512 := by
  show StableHlo.after hostOps1 (B1 m c) (Proc.devRef .tc main_v1) = _
  after_results
  rw [B1_of m c main_arg4 (by decide)]
  rfl
theorem V2_main_v2 (c : Dev nD) : V2 m c main_v2 = shapeCast S1x512 (m ((c.tc : Thread nD τ).loc main_arg5)) shapeCasts_S512_S1x512 := by
  show StableHlo.after hostOps1 (B1 m c) (Proc.devRef .tc main_v2) = _
  after_results
  rw [B1_of m c main_arg5 (by decide)]
  rfl

end Cert.KernelIdeal.Whole

end
-- ==== Proof.Spec.lean ====
/-
  Batch normalisation of a linear layer's output over all rows, then an affine map and a clamp at zero, as two
  formulas of one entry.

  With h the entry of x · Wᵀ, s and ss the sum and the sum of squares of its column over the n = 100000 rows, the
  fused form computes the mean μ = s / n and the variance as ss / n − μ², one scale g · (v + ε)^(−1/2) and one shift
  b − μ · scale per column, and h · scale + shift. The plain form computes the variance as the mean of (h − μ)² and
  g · ((h − μ) / √(v + ε)) + b. Over finite reals the two variances are one number (expand the square; n · μ = s),
  it is at least 0, so v + ε > 0, the inverse square root is the inverse of the square root, and the two affine
  forms are one by distributivity.
-/
import Idealize.ShloMosaic.PureOps.Ideal
import Idealize.ShloMosaic.Lib.ValueIdx

noncomputable section

open scoped BigOperators

namespace Cert.BatchNorm

open Idealize.ShloMosaic Idealize.ShloMosaic.ValueIdx

/-- The row count and the variance floor, as both programs write them. -/
abbrev rows : EReal := Ideal.ofBits .f32 0x47C35000#32
abbrev floorE : EReal := Ideal.ofBits .f32 0x3727C5AC#32

/-- Entry (p, q) of x · Wᵀ. -/
def lin (x : (⟨2, ![100000, 512]⟩ : Shape).Idx → EReal) (w : (⟨2, ![512, 512]⟩ : Shape).Idx → EReal)
    (p : Fin 100000) (q : Fin 512) : EReal :=
  ∑ κ : Fin 512, x (ix2 p κ) * w (ix2 q κ)

/-- The fused form: from an entry `h`, its column's sum `s` and sum of squares `ss`, the column's scale `g` and shift `b`. -/
def fused (h s ss g b : EReal) : EReal :=
  max (h * (g * Ideal.rsqrt (Ideal.div ss rows - Ideal.div s rows * Ideal.div s rows + floorE))
      + (b - Ideal.div s rows * (g * Ideal.rsqrt (Ideal.div ss rows - Ideal.div s rows * Ideal.div s rows + floorE)))) 0

/-- The plain form: from an entry `h`, its column's mean `μ` and variance `v`, the column's scale `g` and shift `b`. -/
def plain (h μ v g b : EReal) : EReal :=
  max (g * Ideal.div (h - μ) (Ideal.sqrt (v + floorE)) + b) 0

/-- The row count is 100000. -/
theorem rows_eq : rows = ((100000 : ℝ) : EReal) := by
  simp [rows, Ideal.ofBits, Ideal.ieee, -EReal.coe_mul]; norm_num

/-- The variance floor is a positive real. -/
theorem floorE_pos : ∃ r : ℝ, 0 < r ∧ floorE = (r : EReal) := by
  simp [floorE, Ideal.ofBits, Ideal.ieee, -EReal.coe_mul]

/-- The zero word is zero. -/
theorem zero_word : Ideal.ofBits .f32 0x00000000#32 = (0 : EReal) := by
  simp [Ideal.ofBits, Ideal.ieee]

/-- A finite sum of coerced reals is the coerced sum. -/
theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A product entry of finite matrices is a real. -/
theorem lin_real (x : (⟨2, ![100000, 512]⟩ : Shape).Idx → EReal) (w : (⟨2, ![512, 512]⟩ : Shape).Idx → EReal)
    (hx : ∀ i, ∃ r : ℝ, x i = (r : EReal)) (hw : ∀ i, ∃ r : ℝ, w i = (r : EReal)) (p : Fin 100000) (q : Fin 512) :
    ∃ r : ℝ, lin x w p q = (r : EReal) := by
  choose xr hxr using hx
  choose wr hwr using hw
  refine ⟨∑ κ : Fin 512, xr (ix2 p κ) * wr (ix2 q κ), ?_⟩
  unfold lin
  rw [← sum_coe]
  refine Finset.sum_congr rfl (fun κ _ => ?_)
  rw [hxr, hwr, EReal.coe_mul]

/-- Over reals, the mean of squares less the squared mean is the mean of squared deviations from the mean. -/
theorem var_forms (r : Fin 100000 → ℝ) :
    (∑ p, r p * r p) * (1 / 100000) - (∑ p, r p) * (1 / 100000) * ((∑ p, r p) * (1 / 100000))
      = (∑ p, (r p - (∑ p', r p') * (1 / 100000)) * (r p - (∑ p', r p') * (1 / 100000))) * (1 / 100000) := by
  generalize hμ : (∑ p', r p') * (1 / 100000 : ℝ) = μ
  have hS : (∑ p, r p) = 100000 * μ := by rw [← hμ]; ring
  have hexp : ∀ p, (r p - μ) * (r p - μ) = r p * r p - 2 * μ * r p + μ * μ := fun p => by ring
  simp_rw [hexp]
  rw [Finset.sum_add_distrib, Finset.sum_sub_distrib, ← Finset.mul_sum, Finset.sum_const, Finset.card_univ,
    Fintype.card_fin, hS, nsmul_eq_mul]
  push_cast
  ring

/-- The two forms agree on a finite column. -/
theorem fused_eq_plain (col : Fin 100000 → EReal) (hcol : ∀ p, ∃ r : ℝ, col p = (r : EReal))
    (g b : EReal) (hg : ∃ r : ℝ, g = (r : EReal)) (hb : ∃ r : ℝ, b = (r : EReal)) (p₀ : Fin 100000) :
    fused (col p₀) (∑ p, col p) (∑ p, col p * col p) g b
      = plain (col p₀) (Ideal.div (∑ p, col p) rows)
          (Ideal.div (∑ p, (col p - Ideal.div (∑ p', col p') rows) * (col p - Ideal.div (∑ p', col p') rows)) rows) g b := by
  choose r hr using hcol
  obtain ⟨γ, rfl⟩ := hg
  obtain ⟨β, rfl⟩ := hb
  obtain ⟨ε, hε, hfl⟩ := floorE_pos
  have hn : (100000 : ℝ) ≠ 0 := by norm_num
  have hS : (∑ p, col p) = (((∑ p, r p : ℝ)) : EReal) := by
    rw [← sum_coe]; exact Finset.sum_congr rfl (fun p _ => hr p)
  have hQ : (∑ p, col p * col p) = (((∑ p, r p * r p : ℝ)) : EReal) := by
    rw [← sum_coe]; exact Finset.sum_congr rfl (fun p _ => by rw [hr p, EReal.coe_mul])
  have hμ : Ideal.div (∑ p, col p) rows = (((∑ p, r p) * (1 / 100000) : ℝ) : EReal) := by
    rw [hS, rows_eq, Ideal.div_coe hn, EReal.coe_mul]
  have hD : (∑ p, (col p - Ideal.div (∑ p', col p') rows) * (col p - Ideal.div (∑ p', col p') rows))
      = (((∑ p, (r p - (∑ p', r p') * (1 / 100000)) * (r p - (∑ p', r p') * (1 / 100000)) : ℝ)) : EReal) := by
    rw [← sum_coe]
    exact Finset.sum_congr rfl (fun p _ => by rw [hμ, hr p, ← EReal.coe_sub, ← EReal.coe_mul])
  have hV : Ideal.div (∑ p, (col p - Ideal.div (∑ p', col p') rows) * (col p - Ideal.div (∑ p', col p') rows)) rows
      = (((∑ p, (r p - (∑ p', r p') * (1 / 100000)) * (r p - (∑ p', r p') * (1 / 100000))) * (1 / 100000) : ℝ) : EReal) := by
    rw [hD, rows_eq, Ideal.div_coe hn, EReal.coe_mul]
  have hM : Ideal.div (∑ p, col p * col p) rows = (((∑ p, r p * r p) * (1 / 100000) : ℝ) : EReal) := by
    rw [hQ, rows_eq, Ideal.div_coe hn, EReal.coe_mul]
  have hv0 : 0 ≤ (∑ p, (r p - (∑ p', r p') * (1 / 100000)) * (r p - (∑ p', r p') * (1 / 100000))) * (1 / 100000 : ℝ) :=
    mul_nonneg (Finset.sum_nonneg (fun p _ => mul_self_nonneg _)) (by norm_num)
  unfold fused plain
  rw [hV, hM, hμ, hfl, hr p₀]
  simp only [← EReal.coe_mul, ← EReal.coe_sub, ← EReal.coe_add]
  rw [var_forms]
  generalize (∑ p, (r p - (∑ p', r p') * (1 / 100000)) * (r p - (∑ p', r p') * (1 / 100000))) * (1 / 100000 : ℝ) = v at hv0 ⊢
  generalize (∑ p, r p) * (1 / 100000 : ℝ) = μ
  have hpos : 0 < v + ε := by linarith
  have hs : Real.sqrt (v + ε) ≠ 0 := (Real.sqrt_pos.mpr hpos).ne'
  rw [Ideal.rsqrt_coe, if_neg (not_lt.mpr hpos.le), if_neg hpos.ne', Ideal.sqrt_coe, if_neg (not_lt.mpr hpos.le),
    Ideal.div_coe hs]
  simp only [← EReal.coe_mul, ← EReal.coe_sub, ← EReal.coe_add]
  exact congrArg (fun t : ℝ => max (t : EReal) 0) (by ring)

end Cert.BatchNorm

end
-- ==== Proof.LibDotNT.lean ====
/-
  A matrix product with the right operand transposed, [a, k] · [b, k]ᵀ → [a, b]: no batch axis, each operand contracted
  on its axis 1 (extent k), the result's rows from the left operand's axis 0, its columns from the right operand's axis 0.

  The dimension numbers place the coordinates: the left operand is read at (row of the result, contraction position),
  the right at (column of the result, contraction position). So at the ideal values, where the product into a zero
  accumulator is the exact sum over the contraction index, the entry (p, q) is  ∑ κ < k, l (p, κ) · r (q, κ).
-/
import Idealize.ShloMosaic.Lib.ValueIdx
import Idealize.ShloMosaic.PureOps.Ideal.Laws

namespace Cert.DotNT

open Idealize.ShloMosaic Idealize.ShloMosaic.ValueIdx

variable {a k b : ℕ} (d : DotDims ⟨2, ![a, k]⟩ ⟨2, ![b, k]⟩ ⟨2, ![a, b]⟩)

/-- The dimension numbers of a product whose right operand is transposed: both contracted on axis 1, both giving
    their axis 0 to the result (the left its rows, the right its columns), no batch axis. -/
structure RowsByRows : Prop where
  lhsBatch : d.lhsBatch = []
  lhsNon : d.lhsNonContracting = [0]
  lhsContr : d.lhsContracting = [1]
  rhsBatch : d.rhsBatch = []
  rhsNon : d.rhsNonContracting = [0]
  rhsContr : d.rhsContracting = [1]

variable {d}

/-- The left operand's row is the result's row. -/
theorem lhs_axis0 (h : RowsByRows d) (j : (⟨2, ![a, b]⟩ : Shape).Idx) (c : d.contr.Idx) : (d.lhsIdx j c 0).val = (j 0).val := by
  unfold DotDims.lhsIdx
  rw [dif_neg (by rw [h.lhsBatch]; exact List.not_mem_nil), dif_pos (by rw [h.lhsNon]; exact List.mem_singleton.mpr rfl)]
  simp only [Fin.val_cast]
  have pos : ∀ (n : Nat) (hn : n < 2), n = 0 → (j ⟨n, hn⟩).val = (j 0).val := fun n hn e => by subst e; rfl
  exact pos _ _ (by simp [h.lhsBatch, h.lhsNon])

/-- The right operand's row is the result's column: its axis 0 comes after the left operand's one free axis. -/
theorem rhs_axis0 (h : RowsByRows d) (j : (⟨2, ![a, b]⟩ : Shape).Idx) (c : d.contr.Idx) : (d.rhsIdx j c 0).val = (j 1).val := by
  unfold DotDims.rhsIdx
  rw [dif_neg (by rw [h.rhsBatch]; exact List.not_mem_nil), dif_pos (by rw [h.rhsNon]; exact List.mem_singleton.mpr rfl)]
  simp only [Fin.val_cast]
  have pos : ∀ (n : Nat) (hn : n < 2), n = 1 → (j ⟨n, hn⟩).val = (j 1).val := fun n hn e => by subst e; rfl
  exact pos _ _ (by simp [h.lhsBatch, h.lhsNon, h.rhsNon])

/-- The left operand's index at entry (p, q) and contraction position κ is (p, κ). -/
theorem lhsIdx_at (h : RowsByRows d) (hr : d.contr.rank = 1) (hs : d.contr.size ⟨0, by omega⟩ = k) (p : Fin a) (q : Fin b) (κ : Fin k) :
    d.lhsIdx (ix2 p q) ((contrEquiv1 d k hr hs).symm κ) = ix2 p κ :=
  funext fun x => Fin.ext (by
    match x with
    | ⟨0, _⟩ => exact lhs_axis0 h _ _
    | ⟨1, _⟩ => exact (d.lhsIdx_val_of_single h.lhsContr _ _).trans (contrEquiv1_symm_val d k hr hs κ))

/-- The right operand's index at entry (p, q) and contraction position κ is (q, κ). -/
theorem rhsIdx_at (h : RowsByRows d) (hr : d.contr.rank = 1) (hs : d.contr.size ⟨0, by omega⟩ = k) (p : Fin a) (q : Fin b) (κ : Fin k) :
    d.rhsIdx (ix2 p q) ((contrEquiv1 d k hr hs).symm κ) = ix2 q κ :=
  funext fun x => Fin.ext (by
    match x with
    | ⟨0, _⟩ => exact rhs_axis0 h _ _
    | ⟨1, _⟩ => exact (d.rhsIdx_val_of_single h.rhsContr _ _).trans (contrEquiv1_symm_val d k hr hs κ))

/-- The contraction over the record's own index type, re-indexed to κ < k. -/
theorem sum_contr (h : RowsByRows d) (hr : d.contr.rank = 1) (hs : d.contr.size ⟨0, by omega⟩ = k)
    (l : (⟨2, ![a, k]⟩ : Shape).Idx → EReal) (r : (⟨2, ![b, k]⟩ : Shape).Idx → EReal) (p : Fin a) (q : Fin b) :
    ∑ c : d.contr.Idx, l (d.lhsIdx (ix2 p q) c) * r (d.rhsIdx (ix2 p q) c) = ∑ κ : Fin k, l (ix2 p κ) * r (ix2 q κ) := by
  rw [← Equiv.sum_comp (contrEquiv1 d k hr hs).symm]
  exact Finset.sum_congr rfl fun κ _ => by rw [lhsIdx_at h hr hs p q κ, rhsIdx_at h hr hs p q κ]

/-- The product into a zero accumulator, at an entry: entry (p, q) of l · rᵀ is the sum over the contraction position of
    the product of row p of l and row q of r. -/
theorem matmul_zero_apply {φ₁ φ₂ : FTy} (h : RowsByRows d) (hr : d.contr.rank = 1) (hs : d.contr.size ⟨0, by omega⟩ = k)
    (prec : Option ContractPrecision) (l : FVec Ideal ⟨2, ![a, k]⟩ φ₁) (r : FVec Ideal ⟨2, ![b, k]⟩ φ₂) (p : Fin a) (q : Fin b) :
    matmul d prec l r (constant ⟨2, ![a, b]⟩ .f32 0x00000000#32) (ix2 p q) = ∑ κ : Fin k, l (ix2 p κ) * r (ix2 q κ) :=
  (Ideal.matmul_constant_zero_apply d prec l r (ix2 p q)).trans (sum_contr h hr hs l r p q)

end Cert.DotNT
-- ==== Proof.KI.ValProd.lean ====
/-
  The staged product after the first launch. Tile t writes rows 4000·t … 4000·t + 3999; the 25 tiles cover all 100000
  rows; a tile's block is the product of its rows of x with Wᵀ, and narrowing changes no ideal value. So entry (p, q)
  of the array is the entry of x · Wᵀ.
-/
import proofs.«140233_g37288906064498_cont_8to1_b_846_8_alg».proof.Proof.KI.Reg0
import proofs.«140233_g37288906064498_cont_8to1_b_846_8_alg».proof.Proof.Spec
import proofs.«140233_g37288906064498_cont_8to1_b_846_8_alg».proof.Proof.LibDotNT
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MmStats

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.BatchNorm

-- the TensorCore's buffer contents when the launch is entered, at the ideal values
variable (V : (c : Dev nD) → (b : Ref sig .tc) → Buf (Elt Ideal) ((c : Thread nD τ).loc b))

/-- The product array: entry (p, q) of x · Wᵀ. -/
def prodArr (c : Dev nD) : S100000x512.Idx → EReal := fun i => lin (V c main_arg1) (V c main_arg3) (i 0) (i 1)

theorem tiles_count : cfg0.N = 25 := by decide

/-- Where each window's block sits at tile t: x and the product move down the rows with the tile, W stays. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of tile t of x is row 4000·t + r of x. -/
theorem xTile_apply (c : Dev nD) (t : Fin cfg0.N) (r : Fin 4000) (κ : Fin 512) (hr : 4000 * t.val + r.val < 100000) :
    (xTile V c t : S4000x512.Idx → EReal) (ix2 r κ) = (V c main_arg1 : S100000x512.Idx → EReal) (ix2 ⟨4000 * t.val + r.val, hr⟩ κ) := by
  obtain ⟨e0, e1, -⟩ := block_index t
  show (V c main_arg1 : S100000x512.Idx → EReal) (((cfg0.win 0).blk t).view.emb (ix2 r κ)) = _
  refine congrArg _ (funext fun a => Fin.ext ?_)
  match a with
  | ⟨0, _⟩ => show win0_0.index t (0 : Fin 2) * 4000 + 1 * r.val = 4000 * t.val + r.val; omega
  | ⟨1, _⟩ => show win0_0.index t (1 : Fin 2) * 512 + 1 * κ.val = κ.val; omega

/-- Every tile reads the whole of W. -/
theorem wMat_apply (c : Dev nD) (t : Fin cfg0.N) (q : Fin 512) (κ : Fin 512) :
    (wMat V c t : S512x512.Idx → EReal) (ix2 q κ) = (V c main_arg3 : S512x512.Idx → EReal) (ix2 q κ) := by
  obtain ⟨-, -, e2, e3, -⟩ := block_index t
  show (V c main_arg3 : S512x512.Idx → EReal) (((cfg0.win 1).blk t).view.emb (ix2 q κ)) = _
  refine congrArg _ (funext fun a => Fin.ext ?_)
  match a with
  | ⟨0, _⟩ => show win0_1.index t (0 : Fin 2) * 512 + 1 * q.val = q.val; omega
  | ⟨1, _⟩ => show win0_1.index t (1 : Fin 2) * 512 + 1 * κ.val = κ.val; omega

/-- The tile's product at an entry: both operands are contracted on their axis 1, so entry (r, q) pairs row r of the
    left with row q of the right. -/
theorem pay1_apply (x0 : Vec Ideal S4000x512 .f32) (x1 : Vec Ideal S512x512 .f32) (r : Fin 4000) (q : Fin 512) :
    (k0_pay1 x0 x1 : S4000x512.Idx → EReal) (ix2 r q) = ∑ κ : Fin 512, (x0 (ix2 r κ) : EReal) * (x1 (ix2 q κ) : EReal) := by
  unfold k0_pay1
  exact Cert.DotNT.matmul_zero_apply (φ₁ := .f32) (φ₂ := .f32) (d := dot_S4000x512_S512x512_S4000x512_1_1_0_0_n_n)
    ⟨rfl, rfl, rfl, rfl, rfl, rfl⟩ rfl rfl none x0 x1 r q

/-- Tile t's product is rows 4000·t … 4000·t + 3999 of x · Wᵀ. -/
theorem tile_lin (c : Dev nD) (t : Fin cfg0.N) (r : Fin 4000) (q : Fin 512) (hp : 4000 * t.val + r.val < 100000) :
    (k0_pay1 (xTile V c t) (wMat V c t) : S4000x512.Idx → EReal) (ix2 r q) = lin (V c main_arg1) (V c main_arg3) ⟨4000 * t.val + r.val, hp⟩ q := by
  refine (pay1_apply (xTile V c t) (wMat V c t) r q).trans ?_
  unfold lin
  exact Finset.sum_congr rfl fun κ _ => congrArg₂ (· * ·) (xTile_apply V c t r κ hp) (wMat_apply V c t q κ)

/-- Narrowing changes no ideal value: the stored block is the tile's product. -/
theorem pay2_apply (x0 : Vec Ideal S4000x512 .f32) (x1 : Vec Ideal S512x512 .f32) (j : S4000x512.Idx) :
    (k0_pay2 x0 x1 : S4000x512.Idx → EReal) j = (k0_pay1 x0 x1 : S4000x512.Idx → EReal) j := by
  unfold k0_pay2
  rfl

/-- What tile t writes back is its block of the product array. -/
theorem flushed_prod (c : Dev nD) (t : Fin cfg0.N) :
    (dat0 V c).flushed 2 t = ((cfg0.win 2).blk t).view.read (Elt Ideal) (prodArr V c) := by
  show (cfg0.win 2).cut (grid0.coords t) ((dat0 V c).after 2 t) = _
  rw [after0_2]
  obtain ⟨-, -, -, -, e4, e5⟩ := block_index t
  have ht : t.val < 25 := tiles_count ▸ t.isLt
  funext j
  have hj0 : (j 0).val < 4000 := (j 0).isLt
  have hp : 4000 * t.val + (j 0).val < 100000 := by omega
  have hx : (cfg0.win 2).xinj (grid0.coords t) j = ix2 (n0 := 4000) (n1 := 512) (j 0) (j 1) := funext fun a => by
    match a with
    | ⟨0, _⟩ => rfl
    | ⟨1, _⟩ => rfl
  have he : (((cfg0.win 2).blk t).view.emb j : S100000x512.Idx) = ix2 (n0 := 100000) (n1 := 512) ⟨4000 * t.val + (j 0).val, hp⟩ (j 1) :=
    funext fun a => Fin.ext (by
      match a with
      | ⟨0, _⟩ => show win0_2.index t (0 : Fin 2) * 4000 + 1 * (j 0).val = 4000 * t.val + (j 0).val; omega
      | ⟨1, _⟩ => show win0_2.index t (1 : Fin 2) * 512 + 1 * (j 1).val = (j 1).val; omega)
  show (k0_pay2 (xTile V c t) (wMat V c t) : S4000x512.Idx → EReal) ((cfg0.win 2).xinj (grid0.coords t) j) = prodArr V c (((cfg0.win 2).blk t).view.emb j)
  rw [hx, he, pay2_apply]
  exact tile_lin V c t (j 0) (j 1) hp

/-- The tile that covers row r is r / 4000. -/
theorem covered (i : S100000x512.Idx) : ∃ t : Fin cfg0.N, (cfg0.win 2).flush t = true ∧ i ∈ ((cfg0.win 2).blk t).view.set := by
  have hi0 : (i 0).val < 100000 := (i 0).isLt
  have hi1 : (i 1).val < 512 := (i 1).isLt
  have hN : (i 0).val / 4000 < cfg0.N := by rw [tiles_count]; omega
  obtain ⟨-, -, -, -, e4, e5⟩ := block_index ⟨(i 0).val / 4000, hN⟩
  have e4' : win0_2.index ⟨(i 0).val / 4000, hN⟩ (0 : Fin 2) = (i 0).val / 4000 := e4
  refine ⟨⟨(i 0).val / 4000, hN⟩, flush0_2 _, ?_⟩
  show i ∈ ((View.whole main_v0_0).slice (win0_2.rect ⟨(i 0).val / 4000, hN⟩)).set
  rw [View.set_slice_whole, Rect.mem_set_unit]
  intro a
  match a with
  | ⟨0, _⟩ =>
    show win0_2.index ⟨(i 0).val / 4000, hN⟩ (0 : Fin 2) * 4000 ≤ (i 0).val ∧ (i 0).val < win0_2.index ⟨(i 0).val / 4000, hN⟩ (0 : Fin 2) * 4000 + 4000
    omega
  | ⟨1, _⟩ =>
    show win0_2.index ⟨(i 0).val / 4000, hN⟩ (1 : Fin 2) * 512 ≤ (i 1).val ∧ (i 1).val < win0_2.index ⟨(i 0).val / 4000, hN⟩ (1 : Fin 2) * 512 + 512
    omega

/-- The staged product after the launch is the product array. -/
theorem prod_final (c : Dev nD) : (dat0 V c).arrAt 2 cfg0.N = prodArr V c :=
  (dat0 V c).arrAt_eq_of_cover 2 (prodArr V c) (fun t _ => flushed_prod V c t) covered

/-- Entry (p, q) of the staged product is the entry of x · Wᵀ. -/
theorem prod_apply (c : Dev nD) (p : Fin 100000) (q : Fin 512) :
    ((dat0 V c).arrAt 2 cfg0.N : S100000x512.Idx → EReal) (ix2 p q) = lin (V c main_arg1) (V c main_arg3) p q := by
  rw [prod_final V c]
  rfl

end Cert.KernelIdeal.MmStats

end
-- ==== Proof.LibTileSum.lean ====
/-
  Tiling a range of positions. The n · k positions 0, …, n · k − 1 split into n tiles of k consecutive positions:
  tile t holds the positions k · t, …, k · t + k − 1, and (t, r) ↦ k · t + r is a bijection from pairs of a tile and
  an offset inside it onto the positions. A sum taken tile by tile, inside each tile offset by offset, is therefore
  the sum over all positions.
-/
import Mathlib.Data.Fintype.BigOperators
import Mathlib.Logic.Equiv.Fin.Basic

open scoped BigOperators

namespace Cert.TileSum

/-- Summing over n tiles of k consecutive positions each is summing over all n · k positions. -/
theorem sum_tiles {M : Type} [AddCommMonoid M] (n k : ℕ) (G : ℕ → M) :
    ∑ t : Fin n, ∑ r : Fin k, G (k * t.val + r.val) = ∑ p : Fin (n * k), G p.val := by
  rw [← Fintype.sum_prod_type' (fun (t : Fin n) (r : Fin k) => G (k * t.val + r.val))]
  refine Fintype.sum_equiv finProdFinEquiv _ _ (fun x => ?_)
  rw [finProdFinEquiv_apply_val, Nat.add_comm]

/-- The 100000 positions as 25 tiles of 4000. -/
theorem sum_tiles_25_4000 {M : Type} [AddCommMonoid M] (G : ℕ → M) :
    ∑ t : Fin 25, ∑ r : Fin 4000, G (4000 * t.val + r.val) = ∑ p : Fin 100000, G p.val :=
  sum_tiles 25 4000 G

end Cert.TileSum
-- ==== Proof.KI.ValStats.lean ====
/-
  The statistics after the first launch. The block is written back once, after the last tile, and then holds the
  running sums over all 25 tiles: row 0 the column sums of x · Wᵀ, row 1 the column sums of its squares. A tile adds
  the sums over its own 4000 rows; the tiles' rows partition the 100000 rows.
-/
import proofs.«140233_g37288906064498_cont_8to1_b_846_8_alg».proof.Proof.KI.Reg0
import proofs.«140233_g37288906064498_cont_8to1_b_846_8_alg».proof.Proof.KI.ValProd
import proofs.«140233_g37288906064498_cont_8to1_b_846_8_alg».proof.Proof.Spec
import proofs.«140233_g37288906064498_cont_8to1_b_846_8_alg».proof.Proof.LibTileSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MmStats

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.BatchNorm

/-- The column sums of a 4000 × 512 block: the reduction over the rows, read at a column. -/
theorem colsum_apply (y : Vec Ideal S4000x512 .f32) (q : Fin 512) :
    (multiReduction (F := Ideal) .add [0] S512 y 0x00000000#32 reduces_S4000x512_S512 (.inl rfl) rfl : S512.Idx → EReal) (ix1 q)
      = ∑ r : Fin 4000, y (ix2 r q) := by
  refine (Ideal.multiReduction_add_single y _ reduces_S4000x512_S512 (.inl rfl) rfl (ix1 q)).trans ?_
  refine Finset.sum_congr rfl fun r _ => congrArg y ?_
  funext a
  match a with
  | ⟨0, _⟩ => rfl
  | ⟨1, _⟩ => rfl

/-- The row number compared with a word `k`, at row ρ: the comparison of ρ's word with `k`. -/
theorem rowbit_apply (k : BitVec 32) (ρ : Fin 8) (q : Fin 512) :
    cmpi .eq (iota .tc S8x512 32 [0] iota_S8x512_d0_w32) (broadcast S8x512 k) (ix2 ρ q) = IntOp.cmpi .eq (BitVec.ofNat 32 ρ.val) k := by
  show IntOp.cmpi .eq (iota .tc S8x512 32 [0] iota_S8x512_d0_w32 (ix2 ρ q)) k = _
  rw [iota_single_apply]

/-- A vector of 512 columns laid as one row and copied into all 8 rows reads, at (ρ, q), the vector at q. -/
theorem spread_apply (v : S512.Idx → EReal) (ρ : Fin 8) (q : Fin 512) :
    broadcastTo S8x512 (shapeCast S1x512 (shapeCast S1x512 v shapeCasts_S512_S1x512) shapeCasts_S1x512_S1x512) broadcasts_S1x512_S8x512 (ix2 ρ q)
      = v (ix1 q) := by
  rw [broadcastTo_1b_ab_apply, shapeCast_self, shapeCast_a_1a_apply]

/-- Row 0 of a tile's contribution: the column sums of the tile's product. -/
theorem pay3_row0 (x0 : Vec Ideal S4000x512 .f32) (x1 : Vec Ideal S512x512 .f32) (q : Fin 512) :
    (k0_pay3 x0 x1 : S8x512.Idx → EReal) (ix2 (0 : Fin 8) q) = ∑ r : Fin 4000, (k0_pay1 x0 x1 : S4000x512.Idx → EReal) (ix2 r q) := by
  unfold k0_pay3
  dsimp only
  rw [addf_apply, select_apply, select_apply, rowbit_apply, rowbit_apply]
  rw [show IntOp.cmpi .eq (BitVec.ofNat 32 (0 : Fin 8).val) 0#32 = 1#1 from by decide,
    show IntOp.cmpi .eq (BitVec.ofNat 32 (0 : Fin 8).val) 1#32 = 0#1 from by decide, select_one, select_zero, spread_apply,
    broadcast_apply]
  refine (congrArg₂ (· + ·) (colsum_apply _ q) zero_word).trans ?_
  exact add_zero _

/-- Row 1 of a tile's contribution: the column sums of the squares of the tile's product. -/
theorem pay3_row1 (x0 : Vec Ideal S4000x512 .f32) (x1 : Vec Ideal S512x512 .f32) (q : Fin 512) :
    (k0_pay3 x0 x1 : S8x512.Idx → EReal) (ix2 (1 : Fin 8) q)
      = ∑ r : Fin 4000, (k0_pay1 x0 x1 : S4000x512.Idx → EReal) (ix2 r q) * (k0_pay1 x0 x1 : S4000x512.Idx → EReal) (ix2 r q) := by
  unfold k0_pay3
  dsimp only
  rw [addf_apply, select_apply, select_apply, rowbit_apply, rowbit_apply]
  rw [show IntOp.cmpi .eq (BitVec.ofNat 32 (1 : Fin 8).val) 0#32 = 0#1 from by decide,
    show IntOp.cmpi .eq (BitVec.ofNat 32 (1 : Fin 8).val) 1#32 = 1#1 from by decide, select_one, select_zero, spread_apply,
    broadcast_apply]
  refine (congrArg₂ (· + ·) zero_word (colsum_apply _ q)).trans ?_
  exact zero_add _

/-- A later tile adds its contribution to what the tile before left. -/
theorem pay4_apply (x0 : Vec Ideal S4000x512 .f32) (x1 : Vec Ideal S512x512 .f32) (acc : Vec Ideal S8x512 .f32) (j : S8x512.Idx) :
    (k0_pay4 x0 x1 acc : S8x512.Idx → EReal) j = (acc : S8x512.Idx → EReal) j + (k0_pay3 x0 x1 : S8x512.Idx → EReal) j := by
  unfold k0_pay4
  rw [shapeCast_self, addf_apply]

-- the TensorCore's buffer contents when the launch is entered, at the ideal values
variable (V : (c : Dev nD) → (b : Ref sig .tc) → Buf (Elt Ideal) ((c : Thread nD τ).loc b))

/-- A number below 25 is a tile of the launch. -/
theorem lt_tiles {n : ℕ} (h : n < 25) : n < cfg0.N := by
  show n < grid0.N
  rw [N_0]; exact h

/-- Every tile's number is below 25. -/
theorem tile_lt (t : Fin cfg0.N) : t.val < 25 := lt_of_lt_of_eq t.isLt N_0

/-- The last tile. -/
abbrev tLast : Fin cfg0.N := ⟨24, lt_tiles (by decide)⟩

/-- The statistics window's block never moves: its block index is zero on both axes at every tile. -/
theorem stats_index_zero : ∀ (t : Fin cfg0.N) (a : Fin 2), win0_3.index t a = 0 :=
  (by decide +kernel : ∀ (t : Fin grid0.N) (a : Fin 2), win0_3.index t a = 0)

/-- The one write-back of the statistics, after tile 24, writes the running sums the 25 tiles have built: the
    block is the whole 8 × 512 array, read through zero offsets. -/
theorem flushed_stats (c : Dev nD) (t : Fin cfg0.N) (hf : (cfg0.win 3).flush t = true) :
    (dat0 V c).flushed 3 t = ((cfg0.win 3).blk t).view.read (Elt Ideal) (statsAt V c 24 (lt_tiles (by decide))) := by
  have h24 : t.val = 24 := by
    have h := (flush0_3 t).mp hf
    have hlt := tile_lt t
    omega
  obtain rfl : t = tLast := Fin.ext h24
  show (cfg0.win 3).cut (grid0.coords _) ((dat0 V c).after 3 _) = _
  rw [after0_3]
  funext y
  rw [View.read_apply]
  show statsAt V c 24 _ _ = statsAt V c 24 _ _
  refine congrArg _ (funext fun a => Fin.ext ?_)
  show (y a).val = win0_3.index _ a * _ + 1 * (y a).val
  rw [stats_index_zero]; omega

/-- So after the launch the statistics array holds the running sums after tile 24. -/
theorem stats_final (c : Dev nD) : (dat0 V c).arrAt 3 cfg0.N = statsAt V c 24 (lt_tiles (by decide)) :=
  (dat0 V c).arrAt_eq_of_cover 3 _ (flushed_stats V c) fun i =>
    ⟨tLast, (flush0_3 tLast).mpr rfl, by
      show i ∈ ((View.whole main_v0_1).slice (win0_3.rect tLast)).set
      rw [View.set_slice_whole]
      exact View.mem_set_unit_zero (funext fun a => by rw [stats_index_zero]; exact Nat.zero_mul _) _ i⟩

/-- Column q of x · Wᵀ as a function of the row's number (zero past the last row, which nothing reads). -/
def colAt (c : Dev nD) (q : Fin 512) : ℕ → EReal :=
  fun i => if h : i < 100000 then lin (V c main_arg1) (V c main_arg3) ⟨i, h⟩ q else 0

/-- Entry (r, q) of tile t's product is the product's entry at row 4000 · t + r. -/
theorem tile_col (c : Dev nD) (t : Fin cfg0.N) (r : Fin 4000) (q : Fin 512) :
    (k0_pay1 (xTile V c t) (wMat V c t) : S4000x512.Idx → EReal) (ix2 r q) = colAt V c q (4000 * t.val + r.val) := by
  have hp : 4000 * t.val + r.val < 100000 := by
    have ht := tile_lt t
    have hr := r.isLt
    omega
  rw [tile_lin V c t r q hp]
  unfold colAt
  rw [dif_pos hp]

/-- Row 0 after tile n: the column's sum over the rows of tiles 0 … n. -/
theorem sums_after (c : Dev nD) (q : Fin 512) : ∀ (n : ℕ) (hn : n < cfg0.N),
    (statsAt V c n hn : S8x512.Idx → EReal) (ix2 (0 : Fin 8) q) = ∑ t : Fin (n + 1), ∑ r : Fin 4000, colAt V c q (4000 * t.val + r.val)
  | 0, hn => by
    show (k0_pay3 (xTile V c ⟨0, hn⟩) (wMat V c ⟨0, hn⟩) : S8x512.Idx → EReal) (ix2 (0 : Fin 8) q) = _
    rw [Fin.sum_univ_one]
    refine (pay3_row0 _ _ q).trans ?_
    exact Finset.sum_congr rfl fun r _ => tile_col V c ⟨0, hn⟩ r q
  | n + 1, hn => by
    show (k0_pay4 (xTile V c ⟨n + 1, hn⟩) (wMat V c ⟨n + 1, hn⟩) (statsAt V c n (Nat.lt_of_succ_lt hn)) : S8x512.Idx → EReal)
      (ix2 (0 : Fin 8) q) = _
    rw [Fin.sum_univ_castSucc]
    refine (pay4_apply _ _ _ _).trans ?_
    refine congrArg₂ (· + ·) (sums_after c q n (Nat.lt_of_succ_lt hn)) ?_
    refine (pay3_row0 _ _ q).trans ?_
    exact Finset.sum_congr rfl fun r _ => tile_col V c ⟨n + 1, hn⟩ r q

/-- Row 1 after tile n: the sum of the column's squares over the rows of tiles 0 … n. -/
theorem squares_after (c : Dev nD) (q : Fin 512) : ∀ (n : ℕ) (hn : n < cfg0.N),
    (statsAt V c n hn : S8x512.Idx → EReal) (ix2 (1 : Fin 8) q)
      = ∑ t : Fin (n + 1), ∑ r : Fin 4000, colAt V c q (4000 * t.val + r.val) * colAt V c q (4000 * t.val + r.val)
  | 0, hn => by
    show (k0_pay3 (xTile V c ⟨0, hn⟩) (wMat V c ⟨0, hn⟩) : S8x512.Idx → EReal) (ix2 (1 : Fin 8) q) = _
    rw [Fin.sum_univ_one]
    refine (pay3_row1 _ _ q).trans ?_
    exact Finset.sum_congr rfl fun r _ => congrArg₂ (· * ·) (tile_col V c ⟨0, hn⟩ r q) (tile_col V c ⟨0, hn⟩ r q)
  | n + 1, hn => by
    show (k0_pay4 (xTile V c ⟨n + 1, hn⟩) (wMat V c ⟨n + 1, hn⟩) (statsAt V c n (Nat.lt_of_succ_lt hn)) : S8x512.Idx → EReal)
      (ix2 (1 : Fin 8) q) = _
    rw [Fin.sum_univ_castSucc]
    refine (pay4_apply _ _ _ _).trans ?_
    refine congrArg₂ (· + ·) (squares_after c q n (Nat.lt_of_succ_lt hn)) ?_
    refine (pay3_row1 _ _ q).trans ?_
    exact Finset.sum_congr rfl fun r _ => congrArg₂ (· * ·) (tile_col V c ⟨n + 1, hn⟩ r q) (tile_col V c ⟨n + 1, hn⟩ r q)

/-- Row 0 of the statistics: the column sums of x · Wᵀ. -/
theorem stats_row0 (c : Dev nD) (q : Fin 512) :
    ((dat0 V c).arrAt 3 cfg0.N : S8x512.Idx → EReal) (ix2 (0 : Fin 8) q) = ∑ p : Fin 100000, lin (V c main_arg1) (V c main_arg3) p q := by
  refine (congrFun (stats_final V c) _).trans ?_
  refine (sums_after V c q 24 _).trans ?_
  refine (Cert.TileSum.sum_tiles_25_4000 (colAt V c q)).trans ?_
  refine Finset.sum_congr rfl fun p _ => ?_
  unfold colAt
  rw [dif_pos p.isLt]

/-- Row 1 of the statistics: the column sums of the squares. -/
theorem stats_row1 (c : Dev nD) (q : Fin 512) :
    ((dat0 V c).arrAt 3 cfg0.N : S8x512.Idx → EReal) (ix2 (1 : Fin 8) q)
      = ∑ p : Fin 100000, lin (V c main_arg1) (V c main_arg3) p q * lin (V c main_arg1) (V c main_arg3) p q := by
  refine (congrFun (stats_final V c) _).trans ?_
  refine (squares_after V c q 24 _).trans ?_
  refine (Cert.TileSum.sum_tiles_25_4000 (fun i => colAt V c q i * colAt V c q i)).trans ?_
  refine Finset.sum_congr rfl fun p _ => ?_
  unfold colAt
  rw [dif_pos p.isLt]

end Cert.KernelIdeal.MmStats

end
-- ==== Proof.KI.ValNorm.lean ====
/-
  The result after the second launch. Tile t writes rows 5000·t … 5000·t + 4999; the 20 tiles cover all rows; every
  entry is the fused form of the staged product's entry, the two statistics of its column and the column's scale and
  shift, read where the launch finds them.
-/
import proofs.«140233_g37288906064498_cont_8to1_b_846_8_alg».proof.Proof.KI.Reg1
import proofs.«140233_g37288906064498_cont_8to1_b_846_8_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Norm

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.BatchNorm

-- the TensorCore's buffer contents when the launch is entered, at the ideal values
variable (V : (c : Dev nD) → (b : Ref sig .tc) → Buf (Elt Ideal) ((c : Thread nD τ).loc b))

/-- A [512] array laid out as one row reads, at (0, q), its entry q. -/
theorem row_of_reshape (v : S512.Idx → EReal) (q : Fin 512) :
    (shapeCast S1x512 v shapeCasts_S512_S1x512 : S1x512.Idx → EReal) (ix2 (0 : Fin 1) q) = v (ix1 q) :=
  shapeCast_a_1a_apply v shapeCasts_S512_S1x512 (0 : Fin 1) q

/-- The first row of the statistics block, as a row. -/
theorem stat_row0 (x0 : Vec Ideal S8x512 .f32) (q : Fin 512) :
    (extractStridedSlice S1x512 ![0, 0] x0 slices_S8x512_o0_0_S1x512 : S1x512.Idx → EReal) (ix2 (0 : Fin 1) q) = x0 (ix2 (0 : Fin 8) q) :=
  slice2_axis0_apply 0 x0 slices_S8x512_o0_0_S1x512 (0 : Fin 1) q (0 : Fin 8) rfl

/-- The second row of the statistics block, as a row. -/
theorem stat_row1 (x0 : Vec Ideal S8x512 .f32) (q : Fin 512) :
    (extractStridedSlice S1x512 ![1, 0] x0 slices_S8x512_o1_0_S1x512 : S1x512.Idx → EReal) (ix2 (0 : Fin 1) q) = x0 (ix2 (1 : Fin 8) q) :=
  slice2_axis0_apply 1 x0 slices_S8x512_o1_0_S1x512 (0 : Fin 1) q (1 : Fin 8) rfl

/-- One row spread over the 5000 rows of a tile reads, at (r, q), the row's entry q. -/
theorem spread_row (v : S1x512.Idx → EReal) (r : Fin 5000) (q : Fin 512) :
    (broadcastTo S5000x512 v broadcasts_S1x512_S5000x512 : S5000x512.Idx → EReal) (ix2 r q) = v (ix2 (0 : Fin 1) q) :=
  broadcastTo_1b_ab_apply v broadcasts_S1x512_S5000x512 r q

/-- A reciprocal square root at an index is the entry's. -/
theorem rsqrt_at {s : Shape} (a : FVec Ideal s .f32) (i : s.Idx) : rsqrt a i = Ideal.rsqrt (a i) := rfl

/-- The tile's payload at row r, column q: the fused form of the product's entry, the column's two statistics and the
    column's scale and shift. -/
theorem pay_apply (x0 : Vec Ideal S8x512 .f32) (x13 x16 : Vec Ideal S1x512 .f32) (x20 : Vec Ideal S5000x512 .bf16)
    (r : Fin 5000) (q : Fin 512) :
    (k1_pay1 x0 x13 x16 x20 : S5000x512.Idx → EReal) (ix2 r q)
      = fused (x20 (ix2 r q)) (x0 (ix2 (0 : Fin 8) q)) (x0 (ix2 (1 : Fin 8) q)) (x13 (ix2 (0 : Fin 1) q)) (x16 (ix2 (0 : Fin 1) q)) := by
  unfold k1_pay1
  simp only [shapeCast_self]
  rw [maximumf_apply, addf_apply, mulf_apply, extf_apply, broadcast_apply, spread_row, spread_row]
  simp only [mulf_apply, subf_apply, addf_apply, divf_apply, rsqrt_at, broadcast_apply, stat_row0, stat_row1]
  unfold fused
  rw [← zero_word]
  rfl

/-- The block indices of the five windows at tile t, decided over the 20 tiles: the product and the result move one
    block of rows per tile, the statistics and the two affine rows stay. -/
theorem tile_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Tile t's block of the staged product, at (r, q), is the product's entry at row 5000·t + r. -/
theorem prod_blk_apply (c : Dev nD) (t : Fin cfg1.N) (r : Fin 5000) (q : Fin 512) (p : Fin 100000)
    (hp : p.val = 5000 * t.val + r.val) :
    (blk V c 0 t : S5000x512.Idx → EReal) (ix2 r q) = (V c main_v0_0 : S100000x512.Idx → EReal) (ix2 p q) := by
  obtain ⟨e0, e1, -⟩ := tile_index t
  unfold blk
  rw [View.read_apply]
  show (V c main_v0_0 : S100000x512.Idx → EReal) (((cfg1.win 0).blk t).view.emb (ix2 r q)) = _
  refine congrArg _ (funext fun a => Fin.ext ?_)
  match a with
  | ⟨0, _⟩ => show win1_0.index t (0 : Fin 2) * 5000 + 1 * r.val = p.val; rw [e0, hp]; omega
  | ⟨1, _⟩ => show win1_0.index t (1 : Fin 2) * 512 + 1 * q.val = q.val; rw [e1]; omega

/-- The statistics window's block is the whole statistics array. -/
theorem stat_blk_apply (c : Dev nD) (t : Fin cfg1.N) (k : Fin 8) (q : Fin 512) :
    (blk V c 1 t : S8x512.Idx → EReal) (ix2 k q) = (V c main_v0_1 : S8x512.Idx → EReal) (ix2 k q) := by
  obtain ⟨-, -, e0, e1, -⟩ := tile_index t
  unfold blk
  rw [View.read_apply]
  show (V c main_v0_1 : S8x512.Idx → EReal) (((cfg1.win 1).blk t).view.emb (ix2 k q)) = _
  refine congrArg _ (funext fun a => Fin.ext ?_)
  match a with
  | ⟨0, _⟩ => show win1_1.index t (0 : Fin 2) * 8 + 1 * k.val = k.val; rw [e0]; omega
  | ⟨1, _⟩ => show win1_1.index t (1 : Fin 2) * 512 + 1 * q.val = q.val; rw [e1]; omega

/-- The scale window's block is the whole scale row. -/
theorem scale_blk_apply (c : Dev nD) (t : Fin cfg1.N) (q : Fin 512) :
    (blk V c 2 t : S1x512.Idx → EReal) (ix2 (0 : Fin 1) q) = (V c main_v1 : S1x512.Idx → EReal) (ix2 (0 : Fin 1) q) := by
  obtain ⟨-, -, -, -, e0, e1, -⟩ := tile_index t
  unfold blk
  rw [View.read_apply]
  show (V c main_v1 : S1x512.Idx → EReal) (((cfg1.win 2).blk t).view.emb (ix2 (0 : Fin 1) q)) = _
  refine congrArg _ (funext fun a => Fin.ext ?_)
  match a with
  | ⟨0, _⟩ => show win1_2.index t (0 : Fin 2) * 1 + 1 * 0 = 0; rw [e0]
  | ⟨1, _⟩ => show win1_2.index t (1 : Fin 2) * 512 + 1 * q.val = q.val; rw [e1]; omega

/-- The shift window's block is the whole shift row. -/
theorem shift_blk_apply (c : Dev nD) (t : Fin cfg1.N) (q : Fin 512) :
    (blk V c 3 t : S1x512.Idx → EReal) (ix2 (0 : Fin 1) q) = (V c main_v2 : S1x512.Idx → EReal) (ix2 (0 : Fin 1) q) := by
  obtain ⟨-, -, -, -, -, -, e0, e1, -⟩ := tile_index t
  unfold blk
  rw [View.read_apply]
  show (V c main_v2 : S1x512.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = 0; rw [e0]
  | ⟨1, _⟩ => show win1_3.index t (1 : Fin 2) * 512 + 1 * q.val = q.val; rw [e1]; omega

/-- The whole result: at (p, q) the fused form of the product's entry, the column's statistics, scale and shift. -/
def normed (c : Dev nD) : S100000x512.Idx → EReal := fun i =>
  fused ((V c main_v0_0 : S100000x512.Idx → EReal) i)
    ((V c main_v0_1 : S8x512.Idx → EReal) (ix2 (0 : Fin 8) (i 1))) ((V c main_v0_1 : S8x512.Idx → EReal) (ix2 (1 : Fin 8) (i 1)))
    ((V c main_v1 : S1x512.Idx → EReal) (ix2 (0 : Fin 1) (i 1))) ((V c main_v2 : S1x512.Idx → EReal) (ix2 (0 : Fin 1) (i 1)))

/-- What tile t writes back is its block of rows of the whole result. -/
theorem flushed_eq (c : Dev nD) (t : Fin cfg1.N) :
    (dat1 V c).flushed 4 t = ((cfg1.win 4).blk t).view.read (Elt Ideal) (normed V c) := by
  have ht : t.val < 20 := t.isLt
  obtain ⟨-, -, -, -, -, -, -, -, e0, e1⟩ := tile_index t
  show (cfg1.win 4).cut (grid1.coords t) ((dat1 V c).after 4 t) = _
  rw [after1_4]
  funext y
  obtain ⟨r, q, rfl⟩ : ∃ (r : Fin 5000) (q : Fin 512), y = ix2 r q := ⟨y 0, y 1, eq_ix2 y⟩
  rw [View.read_apply]
  show (k1_pay1 (blk V c 1 t) (blk V c 2 t) (blk V c 3 t) (blk V c 0 t) : S5000x512.Idx → EReal) (ix2 r q)
    = normed V c (((cfg1.win 4).blk t).view.emb (ix2 r q))
  have hemb : ((cfg1.win 4).blk t).view.emb (ix2 r q) = (ix2 (⟨5000 * t.val + r.val, by omega⟩ : Fin 100000) q : S100000x512.Idx) := by
    funext a; apply Fin.ext
    match a with
    | ⟨0, _⟩ => show win1_4.index t (0 : Fin 2) * 5000 + 1 * r.val = 5000 * t.val + r.val; rw [e0]; omega
    | ⟨1, _⟩ => show win1_4.index t (1 : Fin 2) * 512 + 1 * q.val = q.val; rw [e1]; omega
  rw [hemb]
  refine (pay_apply _ _ _ _ r q).trans ?_
  rw [prod_blk_apply V c t r q ⟨5000 * t.val + r.val, by omega⟩ rfl, stat_blk_apply, stat_blk_apply, scale_blk_apply,
    shift_blk_apply]
  rfl

/-- An index of the result is in tile t's block when its row is among the tile's 5000. -/
theorem mem_tile (t : Fin cfg1.N) (i : S100000x512.Idx) :
    i ∈ ((cfg1.win 4).blk t).view.set ↔ ∀ a : Fin 2, win1_4.index t a * S5000x512.size a ≤ (i a).val ∧ (i a).val < win1_4.index t a * S5000x512.size a + S5000x512.size a := by
  show i ∈ ((View.whole main_v3).slice (win1_4.rect t)).set ↔ _
  rw [View.set_slice_whole, Rect.mem_set_unit]
  exact Iff.rfl

/-- The 20 tiles cover the result: row p is in tile p / 5000. -/
theorem tiles_cover (i : S100000x512.Idx) :
    ∃ t : Fin cfg1.N, (cfg1.win 4).flush t = true ∧ i ∈ ((cfg1.win 4).blk t).view.set := by
  have h0 : (i 0).val < 100000 := (i 0).isLt
  have h1 : (i 1).val < 512 := (i 1).isLt
  have hlt : (i 0).val / 5000 < 20 := by omega
  refine ⟨(⟨(i 0).val / 5000, hlt⟩ : Fin cfg1.N), flush1_4 _, ?_⟩
  obtain ⟨-, -, -, -, -, -, -, -, e0, e1⟩ := tile_index (⟨(i 0).val / 5000, hlt⟩ : Fin cfg1.N)
  rw [mem_tile]
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 512 ≤ (i 1).val ∧ (i 1).val < win1_4.index _ (1 : Fin 2) * 512 + 512
    rw [e1]; omega

/-- The result array after the launch is the whole result. -/
theorem arr_eq (c : Dev nD) : (dat1 V c).arrAt 4 cfg1.N = normed V c :=
  (dat1 V c).arrAt_eq_of_cover 4 (normed V c) (fun t _ => flushed_eq V c t) tiles_cover

/-- Entry (p, q) of the result is the fused form of what the launch finds. -/
theorem out_apply (c : Dev nD) (p : Fin 100000) (q : Fin 512) :
    ((dat1 V c).arrAt 4 cfg1.N : S100000x512.Idx → EReal) (ix2 p q)
      = fused ((V c main_v0_0 : S100000x512.Idx → EReal) (ix2 p q))
          ((V c main_v0_1 : S8x512.Idx → EReal) (ix2 (0 : Fin 8) q)) ((V c main_v0_1 : S8x512.Idx → EReal) (ix2 (1 : Fin 8) q))
          ((V c main_v1 : S1x512.Idx → EReal) (ix2 (0 : Fin 1) q)) ((V c main_v2 : S1x512.Idx → EReal) (ix2 (0 : Fin 1) q)) := by
  rw [arr_eq]
  rfl

end Cert.KernelIdeal.Norm

end
-- ==== Proof.Ref.Run.lean ====
/-
  The reference on one core: x · Wᵀ by a general product against the transposed weights, the column means, the
  column variances as the mean of the squared deviations (the library routine also divides by n − 0 and keeps the
  quotient because n − 0 > 0), the deviations over √(v + ε), the affine map and the clamp at zero. Its run is read
  back as one function of the four float arguments.
-/
import proofs.«140233_g37288906064498_cont_8to1_b_846_8_alg».proof.Proof.Gen.ReferenceIdeal
import Idealize.ShloMosaic.Lib.StableHlo.Run
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- The value types of the reference's float buffers: the [100000, 512] arrays, the weights, the columns, the
    one-row arrays, the scalars. -/
abbrev TM (F : FTy → Type) : Type := (⟨S100000x512, .f32⟩ : BufTy).Contents (Elt F)
abbrev TW (F : FTy → Type) : Type := (⟨S512x512, .f32⟩ : BufTy).Contents (Elt F)
abbrev TV (F : FTy → Type) : Type := (⟨S512, .f32⟩ : BufTy).Contents (Elt F)
abbrev TR (F : FTy → Type) : Type := (⟨S1x512, .f32⟩ : BufTy).Contents (Elt F)
abbrev TS (F : FTy → Type) : Type := (⟨S_, .f32⟩ : BufTy).Contents (Elt F)

/-- The reference as one straight line of 49 operations: the transpose, the product, the column sums and their
    quotient by the row count; the variance routine's nineteen (it recomputes the mean, subtracts, squares, sums,
    divides by rows − 0 and compares that divisor with zero) and the three of the selection it calls; the
    sixteen that normalise, scale and shift; the clamp's three. -/
abbrev ops : List (HloOp τ sig (Elt F)) :=
  [ unary main_arg3 main_v0 ((transpose S512x512 [1, 0] · transposes_S512x512_S512x512_1_0) : TW F → TW F),
    binary main_arg1 main_v0 main_v1 ((fun l r => Host.dotGeneral dot_S100000x512_S512x512_S100000x512_1_0_0_1_n_n none l r) : TM F → TW F → TM F),
    nullary main_cst (constant S_ .f32 0x00000000#32 : TS F),
    binary main_v1 main_cst main_v2 ((fun x v => Host.reduceAdd x v reducesTo_S100000x512_S512_d0 h_S_) : TM F → TS F → TV F),
    nullary main_cst_0 (constant S_ .f32 0x47C35000#32 : TS F),
    unary main_cst_0 main_v3 (broadcastInDim S512 ![] bcast_S_S512 : TS F → TV F),
    binary main_v2 main_v3 main_v4 (Host.divf : TV F → TV F → TV F),
    nullary main_c (constantI S_ 32 0#32),
    TRef.nullary main_call0.cst (constant S_ .f32 0x00000000#32),
    TRef.binary (.of main_v1 : TRef sig ⟨S100000x512, .f32⟩) main_call0.cst main_call0.v0 (fun x v => Host.reduceAdd x v reducesTo_S100000x512_S512_d0 h_S_),
    TRef.unary main_call0.v0 main_call0.v1 (broadcastInDim S1x512 ![1] bcast_S512_S1x512_1),
    TRef.nullary main_call0.cst_0 (constant S_ .f32 0x47C35000#32),
    TRef.unary main_call0.cst_0 main_call0.v2 (broadcastInDim S1x512 ![] bcast_S_S1x512),
    TRef.binary main_call0.v1 main_call0.v2 main_call0.v3 Host.divf,
    TRef.unary main_call0.v3 main_call0.v4 (broadcastInDim S100000x512 ![0, 1] bcast_S1x512_S100000x512_0_1),
    TRef.binary (.of main_v1 : TRef sig ⟨S100000x512, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x512_S512_d0 h_S_),
    TRef.unary main_call0.v8 main_call0.v10 (broadcastInDim S512 ![] bcast_S_S512),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S512 ![] bcast_S_S512),
    TRef.ternary main_call0.v12 main_call0.v11 main_call0.call0.v1 main_call0.call0.v2
      (fun p a b => select (broadcastInDim S512 ![] bcast_S_S512 p) a b),
    unary main_v4 main_v6 (broadcastInDim S1x512 ![1] bcast_S512_S1x512_1 : TV F → TR F),
    unary main_v6 main_v7 (broadcastInDim S100000x512 ![0, 1] bcast_S1x512_S100000x512_0_1 : TR F → TM F),
    binary main_v1 main_v7 main_v8 (subf : TM F → TM F → TM F),
    nullary main_cst_1 (constant S_ .f32 0x3727C5AC#32 : TS F),
    unary main_cst_1 main_v9 (broadcastInDim S512 ![] bcast_S_S512 : TS F → TV F),
    binary main_v5 main_v9 main_v10 (addf : TV F → TV F → TV F),
    unary main_v10 main_v11 (Host.sqrt : TV F → TV F),
    unary main_v11 main_v12 (broadcastInDim S1x512 ![1] bcast_S512_S1x512_1 : TV F → TR F),
    unary main_v12 main_v13 (broadcastInDim S100000x512 ![0, 1] bcast_S1x512_S100000x512_0_1 : TR F → TM F),
    binary main_v8 main_v13 main_v14 (Host.divf : TM F → TM F → TM F),
    unary main_arg4 main_v15 (broadcastInDim S1x512 ![1] bcast_S512_S1x512_1 : TV F → TR F),
    unary main_v15 main_v16 (broadcastInDim S100000x512 ![0, 1] bcast_S1x512_S100000x512_0_1 : TR F → TM F),
    binary main_v16 main_v14 main_v17 (mulf : TM F → TM F → TM F),
    unary main_arg5 main_v18 (broadcastInDim S1x512 ![1] bcast_S512_S1x512_1 : TV F → TR F),
    unary main_v18 main_v19 (broadcastInDim S100000x512 ![0, 1] bcast_S1x512_S100000x512_0_1 : TR F → TM F),
    binary main_v17 main_v19 main_v20 (addf : TM F → TM F → TM F),
    TRef.nullary main_call1.cst (constant S_ .f32 0x00000000#32),
    TRef.unary main_call1.cst main_call1.v0 (broadcastInDim S100000x512 ![] bcast_S_S100000x512),
    TRef.binary (.of main_v20 : TRef sig ⟨S100000x512, .f32⟩) main_call1.v0 main_call1.v1 maximumf ]

-- forty-nine binds re-associated: the rewrite under the chain recurses once per statement
set_option maxRecDepth 1024 in
/-- @main is that line: the three routines unfolded at their calls and the records at their fields, both sides are
    one chain of steps once sequencing is re-associated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub .., binary_bufs_sub ..⟩

/-! ## The result as a function of the arguments

Each piece below is one or two of the reference's operations applied to the pieces before it, at any float values;
`refOut` is their composition at the ideal values. -/

/-- x · Wᵀ: the general product of x with the transposed weights. -/
def prodT (x : TM F) (w : TW F) : TM F :=
  Host.dotGeneral dot_S100000x512_S512x512_S100000x512_1_0_0_1_n_n none x
    (transpose S512x512 [1, 0] w transposes_S512x512_S512x512_1_0)

/-- The column sums, from the zero word. -/
def colSum (h : TM F) : TV F :=
  Host.reduceAdd h (constant S_ .f32 0x00000000#32 : TS F) reducesTo_S100000x512_S512_d0 h_S_

/-- The column means as the main line computes them: the sums over the row count broadcast to a column. -/
def meanCol (h : TM F) : TV F :=
  Host.divf (colSum h) (broadcastInDim S512 ![] bcast_S_S512 (constant S_ .f32 0x47C35000#32 : TS F))

/-- The column means as the variance routine computes them: the sums as one row, over the row count broadcast to
    one row. -/
def meanRow (h : TM F) : TR F :=
  Host.divf (broadcastInDim S1x512 ![1] bcast_S512_S1x512_1 (colSum h))
    (broadcastInDim S1x512 ![] bcast_S_S1x512 (constant S_ .f32 0x47C35000#32 : TS F))

/-- The deviations from the column means. -/
def dev (h : TM F) : TM F :=
  subf h (broadcastInDim S100000x512 ![0, 1] bcast_S1x512_S100000x512_0_1 (meanRow h))

/-- The variance's divisor: the row count less the integer zero converted. -/
def divisor : TS F :=
  subf (constant S_ .f32 0x47C35000#32 : TS F) (sitofp .f32 (constantI S_ 32 0#32))

/-- The column variances: the sums of the squared deviations over the divisor where the divisor is greater than the
    zero word, the NaN word elsewhere. -/
def colVar (h : TM F) : TV F :=
  select (broadcastInDim S512 ![] bcast_S_S512 (cmpf .ogt (divisor (F := F)) (constant S_ .f32 0x00000000#32 : TS F)))
    (Host.divf
      (Host.reduceAdd (mulf (dev h) (dev h)) (constant S_ .f32 0x00000000#32 : TS F) reducesTo_S100000x512_S512_d0 h_S_)
      (broadcastInDim S512 ![] bcast_S_S512 (divisor (F := F))))
    (broadcastInDim S512 ![] bcast_S_S512 (id (constant S_ .f32 0x7FC00000#32 : TS F)))

/-- A column written over every row: as one row, then down the rows. -/
def overRows (v : TV F) : TM F :=
  broadcastInDim S100000x512 ![0, 1] bcast_S1x512_S100000x512_0_1 (broadcastInDim S1x512 ![1] bcast_S512_S1x512_1 v)

/-- The whole line: the scaled and shifted quotient of the deviations by √(variance + ε), clamped at the zero word. -/
def result (x : TM F) (w : TW F) (g b : TV F) : TM F :=
  maximumf
    (addf
      (mulf (overRows g)
        (Host.divf (subf (prodT x w) (overRows (meanCol (prodT x w))))
          (overRows (Host.sqrt (addf (colVar (prodT x w))
            (broadcastInDim S512 ![] bcast_S_S512 (constant S_ .f32 0x3727C5AC#32 : TS F)))))))
      (overRows b))
    (broadcastInDim S100000x512 ![] bcast_S_S100000x512 (constant S_ .f32 0x00000000#32 : TS F))

/-- The reference's result as one function of x, W and the two affine rows. -/
def refOut (x : S100000x512.Idx → EReal) (w : S512x512.Idx → EReal) (g b : S512.Idx → EReal) : S100000x512.Idx → EReal :=
  result (F := Ideal) x w g b

set_option maxRecDepth 8192 in
set_option maxHeartbeats 1000000 in
/-- The fold of the line at the result buffer is `refOut` of the launch contents of the four float arguments: each
    operation's result read at its own buffer, every other buffer left as it was; the typed references' transports
    are the identity at these references. -/
theorem out_eq (V : Valuation τ sig (Elt Ideal)) :
    after (ops (F := Ideal)) V (main_v21 : DevRef τ sig)
      = refOut (V (main_arg1 : DevRef τ sig)) (V (main_arg3 : DevRef τ sig)) (V (main_arg4 : DevRef τ sig))
          (V (main_arg5 : DevRef τ sig)) := by
  after_results_simp
  rfl

/-- Every weakly fair execution ends with the result at `refOut` of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
        = refOut (m ((c.tc : Thread nD τ).loc main_arg1)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => ⟨(h c main_v21).trans (out_eq _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.Hand

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Ref.Read.lean ====
/-
  The reference's result read at an entry. The reference multiplies x by the transposed weights, takes each column's
  mean, takes each column's variance as the mean of the squared deviations (the routine divides by n − 0 and keeps the
  quotient because n − 0 > 0), divides the deviations by √(v + ε), applies the column's scale and shift and clamps at
  zero. Read at entry (p, q) each step is the scalar operation on the entries of column q, so the result is the plain
  form of the product entry, its column's mean and variance, and the column's scale and shift.
-/
import proofs.«140233_g37288906064498_cont_8to1_b_846_8_alg».proof.Proof.Gen.ReferenceIdeal
import proofs.«140233_g37288906064498_cont_8to1_b_846_8_alg».proof.Proof.Ref.Run
import proofs.«140233_g37288906064498_cont_8to1_b_846_8_alg».proof.Proof.Spec
import proofs.«140233_g37288906064498_cont_8to1_b_846_8_alg».proof.Proof.LibPlainDot
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx Cert.BatchNorm

/-- The product against the transposed weights, at an entry. -/
theorem prod_entry (x : S100000x512.Idx → EReal) (w : S512x512.Idx → EReal) (p : Fin 100000) (q : Fin 512) :
    Host.dotGeneral (F := Ideal) (φ₁ := .f32) (φ₂ := .f32) dot_S100000x512_S512x512_S100000x512_1_0_0_1_n_n none x
        (transpose S512x512 [1, 0] w transposes_S512x512_S512x512_1_0) (ix2 p q) = lin x w p q := by
  rw [Cert.PlainDot.dotGeneral_apply ⟨rfl, rfl, rfl, rfl, rfl, rfl⟩ rfl rfl]
  unfold lin
  refine Finset.sum_congr rfl fun κ _ => ?_
  rw [transpose_ix2_apply]

/-- A column's sum from the zero word, at a column. -/
theorem colsum_entry (h : S100000x512.Idx → EReal) (q : Fin 512) :
    Host.reduceAdd (F := Ideal) (φ := .f32) h (constant S_ .f32 0x00000000#32) reducesTo_S100000x512_S512_d0 h_S_ (ix1 q)
      = ∑ p : Fin 100000, h (ix2 p q) := by
  have hR : S100000x512.Reduces [0] S512 := by decide
  rw [hostReduceAdd_apply, Ideal.hostReduceAdd_single reducesTo_S100000x512_S512_d0 hR, constant_apply, zero_word, zero_add]
  refine Finset.sum_congr rfl fun k _ => congrArg h ?_
  funext c
  match c with
  | ⟨0, _⟩ => rfl
  | ⟨1, _⟩ => rfl

/-- A scalar broadcast to any shape reads the scalar. -/
theorem scalarcast_entry {α : Type} {T : Shape} (hb : S_.BroadcastsInDim T ![]) (x : S_.Idx → α) (j : T.Idx) :
    broadcastInDim T ![] hb x j = x ix0 :=
  broadcastInDim_scalar_apply hb x j

/-- A row of 512 laid as a 1 × 512 block reads the row. -/
theorem rowblock_entry (v : S512.Idx → EReal) (r : Fin 1) (q : Fin 512) :
    broadcastInDim S1x512 ![1] bcast_S512_S1x512_1 v (ix2 r q) = v (ix1 q) :=
  broadcastInDim_apply _ _ v _ (ix1 q) fun a => match a with | ⟨0, _⟩ => rfl

/-- A 1 × 512 block repeated down the 100000 rows reads the block's one row. -/
theorem rowsdown_entry (v : S1x512.Idx → EReal) (p : Fin 100000) (q : Fin 512) :
    broadcastInDim S100000x512 ![0, 1] bcast_S1x512_S100000x512_0_1 v (ix2 p q) = v (ix2 (0 : Fin 1) q) :=
  broadcastInDim_apply _ _ v _ (ix2 (0 : Fin 1) q) fun a => match a with | ⟨0, _⟩ => rfl | ⟨1, _⟩ => rfl

/-- A row of 512 repeated down the 100000 rows reads the row at the column. -/
theorem rowcast_entry (v : S512.Idx → EReal) (p : Fin 100000) (q : Fin 512) :
    broadcastInDim S100000x512 ![0, 1] bcast_S1x512_S100000x512_0_1 (broadcastInDim S1x512 ![1] bcast_S512_S1x512_1 v) (ix2 p q)
      = v (ix1 q) := by
  rw [rowsdown_entry, rowblock_entry]

/-- The row count less the converted integer zero is the row count. -/
theorem count_entry (i : S_.Idx) :
    (subf (constant S_ .f32 0x47C35000#32) (sitofp .f32 (constantI S_ 32 0#32)) : FVec Ideal S_ .f32) i = rows := by
  rw [subf_apply, constant_apply, sitofp_apply, constantI_apply]
  show rows - (((0#32 : BitVec 32).toInt : ℝ) : EReal) = rows
  rw [show (0#32 : BitVec 32).toInt = 0 by decide, Int.cast_zero, EReal.coe_zero, sub_zero]

/-- The row count is above the zero word. -/
theorem count_pos (i : S_.Idx) :
    cmpf .ogt (subf (constant S_ .f32 0x47C35000#32) (sitofp .f32 (constantI S_ 32 0#32)) : FVec Ideal S_ .f32)
      (constant S_ .f32 0x00000000#32) i = 1#1 := by
  rw [cmpf_apply, count_entry, constant_apply, zero_word, rows_eq]
  show BitVec.ofBool (decide ((0 : EReal) < ((100000 : ℝ) : EReal))) = 1#1
  rw [decide_eq_true (by exact_mod_cast (by norm_num : (0 : ℝ) < 100000))]
  rfl

/-- The host's square root at an index is the square root of the element. -/
theorem hostSqrt_entry {s : Shape} (v : s.Idx → EReal) (i : s.Idx) :
    Host.sqrt (F := Ideal) (φ := .f32) v i = Ideal.sqrt (v i) := rfl

/-- A column's mean: its sum over the row count. -/
theorem meanCol_entry (h : S100000x512.Idx → EReal) (q : Fin 512) :
    meanCol (F := Ideal) h (ix1 q) = Ideal.div (∑ p : Fin 100000, h (ix2 p q)) rows := by
  unfold meanCol colSum
  rw [hostDivf_apply, colsum_entry, scalarcast_entry, constant_apply]

/-- A column's variance as the routine computes it: the squared deviations from the mean (taken on a 1 × 512 block and
    repeated down the rows) summed, over the row count less zero, kept because that count is positive. -/
theorem colVar_entry (h : S100000x512.Idx → EReal) (q : Fin 512) :
    colVar (F := Ideal) h (ix1 q)
      = Ideal.div (∑ p : Fin 100000, (h (ix2 p q) - Ideal.div (∑ p' : Fin 100000, h (ix2 p' q)) rows)
          * (h (ix2 p q) - Ideal.div (∑ p' : Fin 100000, h (ix2 p' q)) rows)) rows := by
  unfold colVar divisor
  rw [select_apply, scalarcast_entry bcast_S_S512 (cmpf .ogt _ _), count_pos, select_one, hostDivf_apply,
    scalarcast_entry bcast_S_S512 (subf _ _), count_entry, colsum_entry]
  refine congrArg (fun s => Ideal.div s rows) (Finset.sum_congr rfl fun p _ => ?_)
  unfold dev meanRow colSum
  rw [mulf_apply, subf_apply, rowsdown_entry, hostDivf_apply, rowblock_entry, scalarcast_entry, constant_apply, colsum_entry]

/-- The result at entry (p, q): the plain form of the product entry, its column's mean and variance, and the
    column's scale and shift. -/
theorem refOut_apply (x : S100000x512.Idx → EReal) (w : S512x512.Idx → EReal) (g b : S512.Idx → EReal)
    (p : Fin 100000) (q : Fin 512) :
    refOut x w g b (ix2 p q)
      = plain (lin x w p q) (Ideal.div (∑ p', lin x w p' q) rows)
          (Ideal.div (∑ p', (lin x w p' q - Ideal.div (∑ p'', lin x w p'' q) rows)
              * (lin x w p' q - Ideal.div (∑ p'', lin x w p'' q) rows)) rows)
          (g (ix1 q)) (b (ix1 q)) := by
  unfold refOut result
  have hh : ∀ p', prodT (F := Ideal) x w (ix2 p' q) = lin x w p' q := fun p' => prod_entry x w p' q
  generalize prodT (F := Ideal) x w = H at hh ⊢
  unfold overRows plain
  rw [maximumf_apply, addf_apply, mulf_apply, hostDivf_apply, subf_apply, scalarcast_entry bcast_S_S100000x512,
    constant_apply, zero_word, rowcast_entry g, rowcast_entry (meanCol H), rowcast_entry b, rowcast_entry, meanCol_entry,
    hostSqrt_entry, addf_apply, colVar_entry, scalarcast_entry, constant_apply]
  simp only [hh]

end Cert.ReferenceIdeal.Hand

end
-- ==== Proof.Finite.lean ====
/-
  The precondition says of every float argument that the absolute value of each entry is below +∞. On the extended
  reals that leaves exactly the reals: an entry is neither infinity, so it is a real number.
-/
import proofs.«140233_g37288906064498_cont_8to1_b_846_8_alg».proof.Pre_finite_inputs
import proofs.«140233_g37288906064498_cont_8to1_b_846_8_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Hand

open Idealize.ShloMosaic Cert.Pre_finite_inputs Cert.Pre_finite_inputs.Gen

/-- The word the precondition compares against is +∞. -/
theorem inf_word : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test, read back: the entry is a real. -/
theorem real_of_cmp {s : Shape} (a : FVec Ideal s .f32) (hb : S_.BroadcastsInDim s (![] : Fin 0 → Fin s.rank)) (i : s.Idx)
    (e : cmpf CmpFPredicate.olt (Host.absf a) (broadcastInDim s ![] hb (constant S_ FTy.f32 0x7F800000#32)) i = 1#1) :
    ∃ r : ℝ, a i = (r : EReal) := by
  simp only [cmpf, Host.absf, broadcastInDim, constant] at e
  change Ideal.cmp CmpFPredicate.olt (max (a i) (-(a i))) (Ideal.ofBits .f32 0x7F800000#32) = 1#1 at e
  rw [inf_word] at e
  refine real_of_abs_lt_top (a i) ?_
  by_contra hn
  simp [Ideal.cmp, hn] at e

instance : Subsingleton S_.Idx := ⟨fun a b => funext fun d => d.elim0⟩

/-- Under the precondition every entry of x, of W and of the two affine rows is a real. -/
theorem reals_of_pre (a0 : FVec Ideal S100000x3 .f32) (a1 : FVec Ideal S100000x512 .f32) (a2 : IVec S4 32)
    (a3 : FVec Ideal S512x512 .f32) (a4 a5 : FVec Ideal S512 .f32)
    (h : fn (F := Ideal) a0 a1 a2 a3 a4 a5 = fun _ => 1#1) :
    (∀ i, ∃ r : ℝ, a1 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [fn, fn_part1] at h0
  dsimp only [andi] at h0
  rw [IntOp.andi_eq_one, IntOp.andi_eq_one, IntOp.andi_eq_one, IntOp.andi_eq_one] at h0
  obtain ⟨⟨⟨⟨-, h_1⟩, h_3⟩, h_4⟩, h_5⟩ := h0
  exact ⟨fun i => real_of_cmp a1 _ i (Host.reduce_andi_all _ _ _ _ _ h_1 i),
    fun i => real_of_cmp a3 _ i (Host.reduce_andi_all _ _ _ _ _ h_3 i),
    fun i => real_of_cmp a4 _ i (Host.reduce_andi_all _ _ _ _ _ h_4 i),
    fun i => real_of_cmp a5 _ i (Host.reduce_andi_all _ _ _ _ _ h_5 i)⟩

end Cert.Pre_finite_inputs.Hand

end
-- ==== Proof.Bridge.lean ====
/-
  The claims. The two kernel frames are the whole-program run with its value forgotten; the reference's frame is its
  run with the result dropped. For the values: after the second launch entry (p, q) of the result is the fused form
  of the staged product's entry, of the two statistics of column q and of the column's scale and shift; the staged
  product is x · Wᵀ, the statistics are its column sums and the column sums of its squares, the scale and shift rows
  are the two affine arguments reshaped; the reference's entry is the plain form of the same entry, the column's
  mean and its variance as a mean of squared deviations. Under the precondition every entry of x, W and the affine
  rows is a real, so every product entry is, and on a column of reals the two forms are one number.
-/
import proofs.«140233_g37288906064498_cont_8to1_b_846_8_alg».proof.Defs
import proofs.«140233_g37288906064498_cont_8to1_b_846_8_alg».proof.Proof.Gen.Kernel
import proofs.«140233_g37288906064498_cont_8to1_b_846_8_alg».proof.Proof.Gen.KernelIdeal
import proofs.«140233_g37288906064498_cont_8to1_b_846_8_alg».proof.Proof.Gen.ReferenceIdeal
import proofs.«140233_g37288906064498_cont_8to1_b_846_8_alg».proof.Proof.Gen.Pre_finite_inputs
import proofs.«140233_g37288906064498_cont_8to1_b_846_8_alg».proof.Proof.K.Run
import proofs.«140233_g37288906064498_cont_8to1_b_846_8_alg».proof.Proof.KI.Run
import proofs.«140233_g37288906064498_cont_8to1_b_846_8_alg».proof.Proof.KI.ValProd
import proofs.«140233_g37288906064498_cont_8to1_b_846_8_alg».proof.Proof.KI.ValStats
import proofs.«140233_g37288906064498_cont_8to1_b_846_8_alg».proof.Proof.KI.ValNorm
import proofs.«140233_g37288906064498_cont_8to1_b_846_8_alg».proof.Proof.Ref.Run
import proofs.«140233_g37288906064498_cont_8to1_b_846_8_alg».proof.Proof.Ref.Read
import proofs.«140233_g37288906064498_cont_8to1_b_846_8_alg».proof.Proof.Spec
import proofs.«140233_g37288906064498_cont_8to1_b_846_8_alg».proof.Proof.Finite

noncomputable section

open scoped BigOperators

namespace Cert.Proof.Parts

open Idealize.ShloMosaic Idealize.ShloMosaic.TcCoe Idealize.SL.Sem Idealize.ShloMosaic.ValueIdx Cert.BatchNorm

theorem frame_k : Cert.frame_Kernel := fun m ρ _ => Cert.Kernel.Whole.frame m ρ

theorem frame_ki : Cert.frame_KernelIdeal := fun m ρ _ => Cert.KernelIdeal.Whole.frame m ρ

theorem frame_r : Cert.frame_ReferenceIdeal := fun m ρ _ =>
  (θ_run Cert.ReferenceIdeal.defs _ _).mono (fun _ h c => (h c).2) (Cert.ReferenceIdeal.Hand.run m ρ)

open Cert.KernelIdeal in
/-- The reference's function of the kernel's arguments is what the second launch leaves in the result buffer. -/
theorem result_eq (m : (ℓ : Loc nD τ sig) → Buf (Elt Ideal) ℓ) (hpre : Cert.Pre_KernelIdeal m) (c : Dev nD) :
    Cert.ReferenceIdeal.Hand.refOut (m ((c.tc : Thread nD τ).loc main_arg1)) (m ((c.tc : Thread nD τ).loc main_arg3))
        (m ((c.tc : Thread nD τ).loc main_arg4)) (m ((c.tc : Thread nD τ).loc main_arg5))
      = (Norm.dat1 (Whole.V2 m) c).arrAt 4 cfg1.N := by
  obtain ⟨hx, hw, hg, hb⟩ := Cert.Pre_finite_inputs.Hand.reals_of_pre _ _ _ _ _ _ (hpre c)
  funext i
  obtain ⟨p, q, rfl⟩ : ∃ (p : Fin 100000) (q : Fin 512), i = ix2 p q := ⟨i 0, i 1, eq_ix2 i⟩
  rw [Cert.ReferenceIdeal.Hand.refOut_apply]
  refine Eq.trans ?_ (Norm.out_apply (Whole.V2 m) c p q).symm
  rw [Whole.V2_main_v0_0, Whole.V2_main_v0_1, Whole.V2_main_v1, Whole.V2_main_v2,
    MmStats.prod_apply, MmStats.stats_row0, MmStats.stats_row1, Norm.row_of_reshape, Norm.row_of_reshape]
  exact (fused_eq_plain (fun p' => lin (m ((c.tc : Thread nD τ).loc main_arg1)) (m ((c.tc : Thread nD τ).loc main_arg3)) p' q)
    (fun p' => lin_real _ _ hx hw p' q) _ _ (hg _) (hb _) p).symm

theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => (Cert.KernelIdeal.Norm.dat1 (Cert.KernelIdeal.Whole.V2 m) c).arrAt 4 Cert.KernelIdeal.cfg1.N,
    fun c => m ((c.tc : Thread Cert.KernelIdeal.nD Cert.KernelIdeal.τ).loc Cert.KernelIdeal.main_arg2), ?_, ?_⟩
  · exact (θ_run Cert.KernelIdeal.defs _ _).mono (fun _ h c => ⟨(h c).2.1, (h c).1, (h c).2.2.2.1, (h c).2⟩)
      (Cert.KernelIdeal.Whole.run_value m ρ)
  · refine (θ_run Cert.ReferenceIdeal.defs _ _).mono (fun _ h c => ?_) (Cert.ReferenceIdeal.Hand.run m' ρ')
    obtain ⟨h21, ha0, ha1, ha2, ha3, ha4, ha5⟩ := h c
    obtain ⟨e0, e1, e2, e3, e4, e5⟩ := hagree c
    refine ⟨ha0.trans e0, ?_, ha2.trans e2, ha0, ha1, ha2, ha3, ha4, ha5⟩
    rw [h21, e1, e3, e4, e5]
    exact result_eq m hpre c

end Cert.Proof.Parts

end
-- ==== Proof.lean ====
/-
  A linear layer followed by batch normalisation over all 100000 rows, an affine map and a clamp at zero, computed
  in two launches — tiled products with running column sums, then one scale and one shift per column — against the
  textbook form (mean, variance as the mean of squared deviations, normalise, scale, shift, clamp). The two programs
  run to the end, fault nowhere, leave their arguments unchanged, and at the ideal values end with equal results.
-/
import proofs.«140233_g37288906064498_cont_8to1_b_846_8_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_r, trivial, Parts.algebraic⟩

end Cert.Proof

end
